-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S2048x256 : Shape := ⟨2, ![2048, 256]⟩
abbrev S1024x256 : Shape := ⟨2, ![1024, 256]⟩
abbrev S2048x128 : Shape := ⟨2, ![2048, 128]⟩
abbrev S2048x384 : Shape := ⟨2, ![2048, 384]⟩
abbrev S256x128 : Shape := ⟨2, ![256, 128]⟩
abbrev S256x256 : Shape := ⟨2, ![256, 256]⟩
abbrev S2048x1 : Shape := ⟨2, ![2048, 1]⟩
abbrev S2048 : Shape := ⟨1, ![2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x384, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32_3 : BitVec 32 := 0#32
  let c256_i32 : BitVec 32 := 256#32
  let v8 : BitVec 32 := Scalar.muli c0_i32_3 c256_i32
  v8
def k0_off1 (c0_i32_3 : BitVec 32) : Fin 2 → Nat :=
  let c256_i32 : BitVec 32 := 256#32
  let v8 : BitVec 32 := Scalar.muli c0_i32_3 c256_i32
  let v9 : BitVec 32 := v8
  let v10 : Index := Scalar.indexCast v9
  let c0_4 : Index := 0#32
  ![v10.toNat, 0]
def k0_mult2 : BitVec 32 :=
  let c1_i32 : BitVec 32 := 1#32
  let c256_i32_21 : BitVec 32 := 256#32
  let v49 : BitVec 32 := Scalar.muli c1_i32 c256_i32_21
  v49
def k0_mult3 : BitVec 32 :=
  let c2_i32 : BitVec 32 := 2#32
  let c256_i32_40 : BitVec 32 := 256#32
  let v90 : BitVec 32 := Scalar.muli c2_i32 c256_i32_40
  v90
def k0_mult4 : BitVec 32 :=
  let c3_i32 : BitVec 32 := 3#32
  let c256_i32_59 : BitVec 32 := 256#32
  let v131 : BitVec 32 := Scalar.muli c3_i32 c256_i32_59
  v131
def k0_cond2 (i : grid0.Coords) : BitVec 1 :=
  let arg1 : BitVec 32 := BitVec.ofNat 32 (i 1).val
  let c7_i32 : BitVec 32 := 7#32
  let v172 : BitVec 1 := Scalar.cmpi .eq arg1 c7_i32
  let v173 : BitVec 32 := Scalar.extui v172
  let c0_i32_78 : BitVec 32 := 0#32
  let v174 : BitVec 1 := Scalar.cmpi .ne v173 c0_i32_78
  v174

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  h_S256x256 : 0 < S256x256.numel
  slices_S2048x128_o0_0_S2048x1 : S2048x128.Slices ![0, 0] S2048x1
  reduces_S2048x256_S2048 : S2048x256.Reduces [1] S2048
  shapeCasts_S2048_S2048x1 : S2048.ShapeCasts S2048x1
  broadcasts_S2048x1_S2048x256 : S2048x1.Broadcasts S2048x256
  inb_S2048x384_S2048x256_0_0 : ∀ a, (![0, 0] : Fin 2 → Nat) a + S2048x256.size a ≤ S2048x384.size a
  inb_S2048x384_S2048x128_0_256 : ∀ a, (![0, 256] : Fin 2 → Nat) a + S2048x128.size a ≤ S2048x384.size a
  broadcasts_S2048x1_S2048x128 : S2048x1.Broadcasts S2048x128
  shapeCasts_S2048x256_S2048x256 : S2048x256.ShapeCasts S2048x256
  shapeCasts_S2048x1_S2048x1 : S2048x1.ShapeCasts S2048x1
  inb_S2048x384_S2048x1_0_256 : ∀ a, (![0, 256] : Fin 2 → Nat) a + S2048x1.size a ≤ S2048x384.size a
  h_S2048x1 : 0 < S2048x1.numel
  dot_S2048x256_S256x256_S2048x256_1_1_0_0_n_n_wf : DotDims.WF S2048x256 S256x256 S2048x256 [1] [1] [0] [0] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  hrank0 : 0 < grid0.rank
  k0_mult1_dvd : 256 ∣ k0_mult1.toNat
  k0_off1_inb : ∀ (r : Fin 4), ∀ a, (k0_off1 (BitVec.ofNat 32 r.val)) a + S256x256.size a ≤ S1024x256.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S8192x256_S8192x8192_1_1_0_0_n_n_wf : DotDims.WF S8192x256 S8192x256 S8192x8192 [1] [1] [0] [0] [] []
  dot_S8192x8192_S8192x256_S8192x256_1_0_0_1_n_n_wf : DotDims.WF S8192x8192 S8192x256 S8192x256 [1] [0] [0] [1] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Chunk.lean ====
/-
  One chunk of the kernel's body as a function, and the three matrix products in it read entry by entry.

  The body handles its 1024 keys in four chunks of 256.  Each chunk takes the scaled query block `qs`, the
  chunk's key rows `kc` and value rows `vc`, and the three things carried along — the running maximum `ms`
  (one number per row, kept in all 128 lanes), the weighted-value accumulator `am` and the weight accumulator
  `as` (kept in all 128 lanes too) — and returns their new values:

    scores   s   = qs · kcᵀ
    maximum  m'  = max (ms's first lane) (row maximum of s)
    factor   α   = exp (ms's first lane - m')
    weights  p   = exp (s - m')
    am' = α · am + p · vc        sm' = α · sm + p · 1        ms' = m' in every lane

  The four chunks of the printed body are this one function of differently named intermediate values
  (`chunk₁ … chunk₄` below, each by unfolding definitions).
-/
import proofs.«404649_j83554293776546_3_alg».proof.KernelIdeal
import proofs.«404649_j83554293776546_3_alg».proof.Proof.Gen.KernelIdeal
import proofs.«404649_j83554293776546_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Attn

open Cert.KernelIdeal Idealize.ShloMosaic Idealize.ShloMosaic.ValueIdx
open Facts₀ Facts

variable {F : FTy → Type} [FloatOps F]

/-- The scores of the block's 2048 query rows against a chunk's 256 keys. -/
def scores (qs : FVec F S2048x256 .bf16) (kc : Vec F S256x256 .f32) : FVec F S2048x256 .f32 :=
  matmul dot_S2048x256_S256x256_S2048x256_1_1_0_0_n_n none qs (truncf .bf16 kc bitsLt_bf16_f32)
    (constant S2048x256 .f32 0x00000000#32)

/-- The running maximum as kept: its first lane. -/
def mold (ms : Vec F S2048x128 .f32) : FVec F S2048x1 .f32 :=
  extractStridedSlice S2048x1 ![0, 0] ms slices_S2048x128_o0_0_S2048x1

/-- The new running maximum. -/
def mnew (qs : FVec F S2048x256 .bf16) (kc : Vec F S256x256 .f32) (ms : Vec F S2048x128 .f32) : FVec F S2048x1 .f32 :=
  maximumf (mold ms)
    (shapeCast S2048x1 (multiReduction .maximumf [1] S2048 (scores qs kc) 0xFF800000#32 reduces_S2048x256_S2048 (.inl rfl) rfl)
      shapeCasts_S2048_S2048x1)

/-- The factor that moves the accumulators from the old maximum to the new one. -/
def alpha (qs : FVec F S2048x256 .bf16) (kc : Vec F S256x256 .f32) (ms : Vec F S2048x128 .f32) : FVec F S2048x1 .f32 :=
  exp (subf (mold ms) (mnew qs kc ms))

/-- The chunk's weights. -/
def probs (qs : FVec F S2048x256 .bf16) (kc : Vec F S256x256 .f32) (ms : Vec F S2048x128 .f32) : FVec F S2048x256 .bf16 :=
  truncf .bf16 (exp (subf (scores qs kc) (broadcastTo S2048x256 (mnew qs kc ms) broadcasts_S2048x1_S2048x256))) bitsLt_bf16_f32

/-- The weighted-value accumulator after the chunk. -/
def accMain (qs : FVec F S2048x256 .bf16) (kc vc : Vec F S256x256 .f32) (ms : Vec F S2048x128 .f32)
    (am : Vec F S2048x256 .f32) : FVec F S2048x256 .f32 :=
  shapeCast S2048x256
    (addf (mulf (broadcastTo S2048x256 (alpha qs kc ms) broadcasts_S2048x1_S2048x256) am)
      (matmul dot_S2048x256_S256x256_S2048x256_1_0_0_1_n_n none (probs qs kc ms) (truncf .bf16 vc bitsLt_bf16_f32)
        (constant S2048x256 .f32 0x00000000#32)))
    shapeCasts_S2048x256_S2048x256

/-- The weight accumulator after the chunk. -/
def accSum (qs : FVec F S2048x256 .bf16) (kc : Vec F S256x256 .f32) (ms : Vec F S2048x128 .f32)
    (sm : Vec F S2048x128 .f32) : FVec F S2048x128 .f32 :=
  shapeCast S2048x128
    (addf (mulf (broadcastTo S2048x128 (alpha qs kc ms) broadcasts_S2048x1_S2048x128) sm)
      (matmul dot_S2048x256_S256x128_S2048x128_1_0_0_1_n_n none (probs qs kc ms) (Gen.k0_pay8 (F := F))
        (constant S2048x128 .f32 0x00000000#32)))
    shapeCasts_S2048x128_S2048x128

/-- The running maximum after the chunk, in every lane. -/
def msNew (qs : FVec F S2048x256 .bf16) (kc : Vec F S256x256 .f32) (ms : Vec F S2048x128 .f32) : FVec F S2048x128 .f32 :=
  shapeCast S2048x128
    (broadcastTo S2048x128 (shapeCast S2048x1 (mnew qs kc ms) shapeCasts_S2048x1_S2048x1) broadcasts_S2048x1_S2048x128)
    shapeCasts_S2048x128_S2048x128

/-! ## The printed body's four chunks are this function -/

theorem chunk₁_main (v3 : Vec F S2048x256 .f32) (v11 v14 : Vec F S256x256 .f32) (v17 : Vec F S2048x128 .f32) (v28 : Vec F S2048x256 .f32) :
    Gen.k0_pay17 (Gen.k0_pay14 v3 v11 v14 v17 v28) = accMain (Gen.k0_pay7 v3) v11 v14 v17 v28 := rfl
theorem chunk₁_sum (v3 : Vec F S2048x256 .f32) (v11 : Vec F S256x256 .f32) (v17 v33 : Vec F S2048x128 .f32) :
    Gen.k0_pay18 (Gen.k0_pay15 v3 v11 v17 v33) (Gen.k0_pay16 v3 v11 v17) = accSum (Gen.k0_pay7 v3) v11 v17 v33 := rfl
theorem chunk₁_max (v3 : Vec F S2048x256 .f32) (v11 : Vec F S256x256 .f32) (v17 : Vec F S2048x128 .f32) :
    Gen.k0_pay19 (Gen.k0_pay11 v3 v11 v17) = msNew (Gen.k0_pay7 v3) v11 v17 := rfl

theorem chunk₂_main (v6 : FVec F S2048x256 .bf16) (v52 v55 : Vec F S256x256 .f32) (v58 : Vec F S2048x128 .f32) (v69 : Vec F S2048x256 .f32) :
    Gen.k0_pay26 (Gen.k0_pay25 v6 v52 v55 v58 v69) = accMain v6 v52 v55 v58 v69 := rfl
theorem chunk₂_sum (v6 : FVec F S2048x256 .bf16) (v52 : Vec F S256x256 .f32) (v58 v74 : Vec F S2048x128 .f32) :
    Gen.k0_pay27 (Gen.k0_pay8 (F := F)) (Gen.k0_pay23 v6 v52 v58) (Gen.k0_pay24 v6 v52 v58) v74 = accSum v6 v52 v58 v74 := rfl
theorem chunk₂_max (v6 : FVec F S2048x256 .bf16) (v52 : Vec F S256x256 .f32) (v58 : Vec F S2048x128 .f32) :
    Gen.k0_pay28 (Gen.k0_pay22 v6 v52 v58) = msNew v6 v52 v58 := rfl

theorem chunk₃_main (v6 : FVec F S2048x256 .bf16) (v93 v96 : Vec F S256x256 .f32) (v99 : Vec F S2048x128 .f32) (v110 : Vec F S2048x256 .f32) :
    Gen.k0_pay36 (Gen.k0_pay34 v6 v93 v99 v110) (Gen.k0_pay35 v6 v93 v96 v99) = accMain v6 v93 v96 v99 v110 := rfl
theorem chunk₃_sum (v6 : FVec F S2048x256 .bf16) (v93 : Vec F S256x256 .f32) (v99 v115 : Vec F S2048x128 .f32) :
    Gen.k0_pay37 (Gen.k0_pay8 (F := F)) (Gen.k0_pay32 v6 v93 v99) (Gen.k0_pay33 v6 v93 v99) v115 = accSum v6 v93 v99 v115 := rfl
theorem chunk₃_max (v6 : FVec F S2048x256 .bf16) (v93 : Vec F S256x256 .f32) (v99 : Vec F S2048x128 .f32) :
    Gen.k0_pay38 (Gen.k0_pay31 v6 v93 v99) = msNew v6 v93 v99 := rfl

theorem chunk₄_main (v6 : FVec F S2048x256 .bf16) (v134 v137 : Vec F S256x256 .f32) (v140 : Vec F S2048x128 .f32) (v151 : Vec F S2048x256 .f32) :
    Gen.k0_pay1 (Gen.k0_pay39 v137) (Gen.k0_pay43 v6 v134 v140) (Gen.k0_pay44 v6 v134 v140) v151 = accMain v6 v134 v137 v140 v151 := rfl
theorem chunk₄_sum (v6 : FVec F S2048x256 .bf16) (v134 : Vec F S256x256 .f32) (v140 v156 : Vec F S2048x128 .f32) :
    Gen.k0_pay2 (Gen.k0_pay8 (F := F)) (Gen.k0_pay43 v6 v134 v140) (Gen.k0_pay44 v6 v134 v140) v156 = accSum v6 v134 v140 v156 := rfl
theorem chunk₄_max (v6 : FVec F S2048x256 .bf16) (v134 : Vec F S256x256 .f32) (v140 : Vec F S2048x128 .f32) :
    Gen.k0_pay3 (Gen.k0_pay42 v6 v134 v140) = msNew v6 v134 v140 := rfl

/-! ## The body: four chunks in a row -/

/-- What the body carries from chunk to chunk: the running maximum, the weighted-value accumulator, the weight
    accumulator. -/
structure St (F : FTy → Type) [FloatOps F] where
  ms : Vec F S2048x128 .f32
  am : Vec F S2048x256 .f32
  sm : Vec F S2048x128 .f32

/-- One chunk. -/
def step (qs : FVec F S2048x256 .bf16) (kc vc : Vec F S256x256 .f32) (st : St F) : St F :=
  ⟨msNew qs kc st.ms, accMain qs kc vc st.ms st.am, accSum qs kc st.ms st.sm⟩

/-- Rows `o … o + 255` of a 1024-row block. -/
def rows (x : Vec F S1024x256 .f32) (o : ℕ) (h : ∀ a, (![o, 0] : Fin 2 → ℕ) a + S256x256.size a ≤ S1024x256.size a) :
    Vec F S256x256 .f32 :=
  View.ld x (Rect.unit (s := S1024x256) ![o, 0] S256x256.size h)

/-- Columns 0 … 255 of the accumulator scratch: the weighted values. -/
def mainOf (acc : Vec F S2048x384 .f32) : Vec F S2048x256 .f32 :=
  View.ld acc (Rect.unit (s := S2048x384) ![0, 0] S2048x256.size inb_S2048x384_S2048x256_0_0)

/-- Columns 256 … 383 of the accumulator scratch: the weights' sum, in every lane. -/
def sumOf (acc : Vec F S2048x384 .f32) : Vec F S2048x128 .f32 :=
  View.ld acc (Rect.unit (s := S2048x384) ![0, 256] S2048x128.size inb_S2048x384_S2048x128_0_256)

/-- The first lane of the weights' sum, as a column. -/
def col0 (sm : Vec F S2048x128 .f32) : Vec F S2048x1 .f32 :=
  View.ld sm (Rect.unit (s := S2048x128) ![0, 0] S2048x1.size (by decide))

/-- The four chunks of one grid point, on the point's query block `x0`, key block `x1` and value block `x2`. -/
def body (x0 : Vec F S2048x256 .f32) (x1 x2 : Vec F S1024x256 .f32) (st : St F) : St F :=
  step (Gen.k0_pay7 x0) (rows x1 768 (by decide)) (rows x2 768 (by decide))
    (step (Gen.k0_pay7 x0) (rows x1 512 (by decide)) (rows x2 512 (by decide))
      (step (Gen.k0_pay7 x0) (rows x1 256 (by decide)) (rows x2 256 (by decide))
        (step (Gen.k0_pay7 x0) (rows x1 0 (by decide)) (rows x2 0 (by decide)) st)))

/-- The offsets of a whole-buffer access are zero. -/
theorem hz : (![0, 0] : Fin 2 → Nat) = fun _ => 0 := funext fun a => by fin_cases a <;> rfl

end Cert.KernelIdeal.Attn

end
-- ==== Proof.Pieces.lean ====
/-
  What each case of the body leaves in the carried scratch and in the output block, as values.

  The run of each case ends with lists of stores ("pieces", last first).  The running maximum's buffer is always
  stored whole, so what it holds is the last store's payload.  The accumulator buffer [2048, 384] is stored in two
  column ranges, the weighted values (columns 0 … 255) and then the weights' sum (columns 256 … 383); a load of
  the first range made after a store of the second skips that store (the ranges are disjoint), and a load of the
  range last stored reads its payload.  Read this way every case is the four-chunk function `body` of
  Chunk.lean applied to what the case starts from: what the point before left (cases B and C), or `-∞` and
  zeros (case A, the first key block of a query block).  Case C also stores the output block: the weighted values
  divided by the first lane of the weights' sum.
-/
import proofs.«404649_j83554293776546_3_alg».proof.Proof.Gen.KernelIdeal.Frame
import proofs.«404649_j83554293776546_3_alg».proof.Proof.Chunk
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Reading back the accumulator's two column ranges -/

section ReadBack
variable {sg : RefSig} {κ : Kind} {sp : Space} {s : Shape} {e : EltTy} {Val : EltTy → Type} [∀ e, Nonempty (Val e)]

/-- What the stores leave in the rectangle last stored: that store's payload. -/
theorem ld_canon_cons (r : Rect s) (w : r.shape.Idx → Val e) (L : List (View.Piece Val s e)) :
    View.ld (View.canon ((⟨r, w⟩ : View.Piece Val s e) :: L)) r = w :=
  funext fun x => View.canon_cons_emb r w L x

/-- What the stores leave in the rectangle stored before the last, when the last store's rectangle is disjoint from
    it: the earlier store's payload. -/
theorem ld_canon_cons_skip (r' r : Rect s) (hd : Disjoint r'.set r.toLoadRect.set) (w' : r'.shape.Idx → Val e)
    (w : r.shape.Idx → Val e) (L : List (View.Piece Val s e)) :
    View.ld (View.canon ((⟨r', w'⟩ : View.Piece Val s e) :: (⟨r, w⟩ : View.Piece Val s e) :: L)) r = w :=
  funext fun x => by
    show View.canon _ (r.toLoadRect.idx x) = w x
    rw [View.canon_cons_of_not_mem _ _ (Finset.disjoint_right.mp hd (r.toLoadRect.idx_mem x))]
    exact View.canon_cons_emb r w L x

/-- A load made after a store into a rectangle disjoint from the load's reads the earlier stores. -/
theorem readCov_cons_skip (v : View sg κ sp s e) (r' : Rect s) (w' : r'.shape.Idx → Val e)
    (L : List (View.Piece Val s e)) (B : LoadRect s) (hd : Disjoint r'.set B.set) :
    v.readCov ((⟨r', w'⟩ : View.Piece Val s e) :: L) B = v.readCov L B :=
  View.readCov_cons_of_disjoint v ⟨r', w'⟩ L B hd

/-- After ONE store of the whole buffer, a load of any rectangle reads that rectangle of the payload. -/
theorem readCov_whole {S : Shape} (v : View sg κ sp S e) {off : Fin S.rank → ℕ} (h0 : off = fun _ => 0)
    (inb : ∀ a, off a + S.size a ≤ S.size a) (w : S.Idx → Val e) (r : Rect S) :
    v.readCov [(⟨Rect.unit off S.size inb, w⟩ : View.Piece Val S e)] r.toLoadRect = View.ld w r := by
  subst h0
  rw [View.readCov_eq_canon_ld _ _ _ (fun y => ⟨_, List.mem_singleton_self _, by
    show y ∈ (Rect.whole S).set; rw [Rect.set_whole]; exact Finset.mem_univ y⟩), View.canon_unit_zero rfl]

end ReadBack

/-- The accumulator's sum columns lie to the right of its value columns. -/
theorem sum_disjoint_main :
    Disjoint (Rect.unit (s := S2048x384) ![0, 256] S2048x128.size inb_S2048x384_S2048x128_0_256).set
      (Rect.unit (s := S2048x384) ![0, 0] S2048x256.size inb_S2048x384_S2048x256_0_0).toLoadRect.set :=
  Rect.unit_disjoint (inb := inb_S2048x384_S2048x128_0_256) (inb' := inb_S2048x384_S2048x256_0_0) 1 (Or.inr (by decide))

/-- A load of the first sum column made right after the store of the sum columns reads the payload's first lane. -/
theorem readCov_col0 {sg : RefSig} {κ : Kind} {sp : Space} (v : View sg κ sp S2048x384 .f32)
    (w : (Rect.unit (s := S2048x384) ![0, 256] S2048x128.size inb_S2048x384_S2048x128_0_256).shape.Idx → Elt F .f32)
    (L : List (View.Piece (Elt F) S2048x384 .f32)) :
    v.readCov ((⟨Rect.unit (s := S2048x384) ![0, 256] S2048x128.size inb_S2048x384_S2048x128_0_256, w⟩ : View.Piece (Elt F) S2048x384 .f32) :: L)
        (Rect.unit (s := S2048x384) ![0, 256] S2048x1.size inb_S2048x384_S2048x1_0_256).toLoadRect = col0 (F := F) w := by
  rw [View.readCov_eq_canon']
  funext j
  have hidx : (Rect.unit (s := S2048x384) ![0, 256] S2048x1.size inb_S2048x384_S2048x1_0_256).toLoadRect.idx j
      = (Rect.unit (s := S2048x384) ![0, 256] S2048x128.size inb_S2048x384_S2048x128_0_256).emb
          ((Rect.unit (s := S2048x128) ![0, 0] S2048x1.size (by decide)).idx j) := by
    funext a; apply Fin.ext
    match a with
    | ⟨0, _⟩ => show 0 + 1 * (j 0).val = 0 + 1 * (0 + 1 * (j 0).val); omega
    | ⟨1, _⟩ => show 256 + 1 * (j 1).val = 256 + 1 * (0 + 1 * (j 1).val); omega
  show View.canon _ ((Rect.unit (s := S2048x384) ![0, 256] S2048x1.size inb_S2048x384_S2048x1_0_256).toLoadRect.idx j)
    = w ((Rect.unit (s := S2048x128) ![0, 0] S2048x1.size (by decide)).idx j)
  rw [hidx]
  exact View.canon_cons_emb (Rect.unit (s := S2048x384) ![0, 256] S2048x128.size inb_S2048x384_S2048x128_0_256) w L _

/-! ## Case A: the first key block of a query block's run (the scratch reset first) -/

theorem piece_A_ms (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : cond0_0 i) (hc1 : ¬cond0_1 i)
    (x0 : Vec F S2048x256 .f32) (x1 : Vec F S1024x256 .f32) (x2 : Vec F S1024x256 .f32) :
    sout0_A_0 c i arg2 harg2 arg3 harg3 arg4 harg4 arg5 harg5 arg6 harg6 arg7 harg7 hc0 hc1 x0 x1 x2 = (body x0 x1 x2 ⟨Gen.k0_pay5, mainOf Gen.k0_pay6, sumOf Gen.k0_pay6⟩).ms := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x128) hz]
  simp only [readCov_whole (S := S2048x384) _ hz, readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
  rfl

theorem piece_A_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : cond0_0 i) (hc1 : ¬cond0_1 i)
    (x0 : Vec F S2048x256 .f32) (x1 : Vec F S1024x256 .f32) (x2 : Vec F S1024x256 .f32) :
    mainOf (sout0_A_1 c i arg2 harg2 arg3 harg3 arg4 harg4 arg5 harg5 arg6 harg6 arg7 harg7 hc0 hc1 x0 x1 x2) = (body x0 x1 x2 ⟨Gen.k0_pay5, mainOf Gen.k0_pay6, sumOf Gen.k0_pay6⟩).am
    ∧ sumOf (sout0_A_1 c i arg2 harg2 arg3 harg3 arg4 harg4 arg5 harg5 arg6 harg6 arg7 harg7 hc0 hc1 x0 x1 x2) = (body x0 x1 x2 ⟨Gen.k0_pay5, mainOf Gen.k0_pay6, sumOf Gen.k0_pay6⟩).sm := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  constructor
  · unfold mainOf
    rw [ld_canon_cons_skip _ _ sum_disjoint_main]
    simp only [readCov_whole (S := S2048x384) _ hz, readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl
  · unfold sumOf
    rw [ld_canon_cons]
    simp only [readCov_whole (S := S2048x384) _ hz, readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl

/-! ## Case B: a key block in the middle of the run -/

theorem piece_B_ms (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : ¬cond0_0 i) (hc1 : ¬cond0_1 i)
    (x0 : Vec F S2048x256 .f32) (x1 : Vec F S1024x256 .f32) (x2 : Vec F S1024x256 .f32) (xs0 : Vec F S2048x128 .f32) (xs1 : Vec F S2048x384 .f32) :
    sout0_B_0 c i arg2 harg2 arg3 harg3 arg4 harg4 arg5 harg5 arg6 harg6 arg7 harg7 hc0 hc1 x0 x1 x2 xs0 xs1 = (body x0 x1 x2 ⟨xs0, mainOf xs1, sumOf xs1⟩).ms := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_cons_unit_zero (S := S2048x128) hz]
  simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
  rfl

theorem piece_B_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : ¬cond0_0 i) (hc1 : ¬cond0_1 i)
    (x0 : Vec F S2048x256 .f32) (x1 : Vec F S1024x256 .f32) (x2 : Vec F S1024x256 .f32) (xs0 : Vec F S2048x128 .f32) (xs1 : Vec F S2048x384 .f32) :
    mainOf (sout0_B_1 c i arg2 harg2 arg3 harg3 arg4 harg4 arg5 harg5 arg6 harg6 arg7 harg7 hc0 hc1 x0 x1 x2 xs0 xs1) = (body x0 x1 x2 ⟨xs0, mainOf xs1, sumOf xs1⟩).am
    ∧ sumOf (sout0_B_1 c i arg2 harg2 arg3 harg3 arg4 harg4 arg5 harg5 arg6 harg6 arg7 harg7 hc0 hc1 x0 x1 x2 xs0 xs1) = (body x0 x1 x2 ⟨xs0, mainOf xs1, sumOf xs1⟩).sm := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  constructor
  · unfold mainOf
    rw [ld_canon_cons_skip _ _ sum_disjoint_main]
    simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl
  · unfold sumOf
    rw [ld_canon_cons]
    simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl

/-! ## Case C: the last key block of the run (the output stored at the end) -/

theorem piece_C_ms (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : ¬cond0_0 i) (hc1 : cond0_1 i)
    (x0 : Vec F S2048x256 .f32) (x1 : Vec F S1024x256 .f32) (x2 : Vec F S1024x256 .f32) (xs0 : Vec F S2048x128 .f32) (xs1 : Vec F S2048x384 .f32) :
    sout0_C_0 c i arg2 harg2 arg3 harg3 arg4 harg4 arg5 harg5 arg6 harg6 arg7 harg7 hc0 hc1 x0 x1 x2 xs0 xs1 = (body x0 x1 x2 ⟨xs0, mainOf xs1, sumOf xs1⟩).ms := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_cons_unit_zero (S := S2048x128) hz]
  simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
  rfl

theorem piece_C_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : ¬cond0_0 i) (hc1 : cond0_1 i)
    (x0 : Vec F S2048x256 .f32) (x1 : Vec F S1024x256 .f32) (x2 : Vec F S1024x256 .f32) (xs0 : Vec F S2048x128 .f32) (xs1 : Vec F S2048x384 .f32) :
    mainOf (sout0_C_1 c i arg2 harg2 arg3 harg3 arg4 harg4 arg5 harg5 arg6 harg6 arg7 harg7 hc0 hc1 x0 x1 x2 xs0 xs1) = (body x0 x1 x2 ⟨xs0, mainOf xs1, sumOf xs1⟩).am
    ∧ sumOf (sout0_C_1 c i arg2 harg2 arg3 harg3 arg4 harg4 arg5 harg5 arg6 harg6 arg7 harg7 hc0 hc1 x0 x1 x2 xs0 xs1) = (body x0 x1 x2 ⟨xs0, mainOf xs1, sumOf xs1⟩).sm := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  constructor
  · unfold mainOf
    rw [ld_canon_cons_skip _ _ sum_disjoint_main]
    simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl
  · unfold sumOf
    rw [ld_canon_cons]
    simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
    rfl

/-- Case C's output block: the weighted values divided by the first lane of the weights' sum. -/
theorem piece_C_out (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S2048x256 .f32) (harg5 : arg5.IsWhole) (arg6 : Memref sig .tc .vmem S2048x128 .f32) (harg6 : arg6.IsWhole) (arg7 : Memref sig .tc .vmem S2048x384 .f32) (harg7 : arg7.IsWhole) (hc0 : ¬cond0_0 i) (hc1 : cond0_1 i)
    (x0 : Vec F S2048x256 .f32) (x1 : Vec F S1024x256 .f32) (x2 : Vec F S1024x256 .f32) (xs0 : Vec F S2048x128 .f32) (xs1 : Vec F S2048x384 .f32) :
    out0_C_3 c i arg2 harg2 arg3 harg3 arg4 harg4 arg5 harg5 arg6 harg6 arg7 harg7 hc0 hc1 x0 x1 x2 xs0 xs1
      = Gen.k0_pay4 (col0 (body x0 x1 x2 ⟨xs0, mainOf xs1, sumOf xs1⟩).sm) (body x0 x1 x2 ⟨xs0, mainOf xs1, sumOf xs1⟩).am := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x256) hz]
  simp only [readCov_cons_skip _ _ _ _ _ sum_disjoint_main, View.readCov_cons_toLoadRect, View.readAt_eq_ld, harg2.read_unread, harg3.read_unread,
      harg4.read_unread, harg6.read_unread, harg7.read_unread,
      View.ld_unit_zero (S := S2048x256) hz, View.ld_unit_zero (S := S2048x128) hz,
      chunk₁_max, chunk₂_max, chunk₃_max, chunk₄_max, chunk₁_main, chunk₂_main, chunk₃_main, chunk₄_main,
      chunk₁_sum, chunk₂_sum, chunk₃_sum, chunk₄_sum]
  rw [readCov_col0]
  rfl

end Cert.KernelIdeal.Attn

end
-- ==== Proof.Spec.lean ====
/-
  The function of the three argument arrays that both programs compute.

  With `q`, `k`, `v` the arrays' entries as real numbers, the score of query row `n` against key row `j` is
  `∑ d, q n d * (1/16) * k j d` (256 features, so `1/16 = 1/√256`), and entry `(n, c)` of the result is the
  average of column `c` of `v` weighted by the exponentials of row `n`'s scores:
  `(∑ j, exp (score n j) * v j c) / (∑ j, exp (score n j))`.

  The sums over the keys run over an initial segment `j < L` of the naturals, so that a running accumulation
  over blocks of keys is a statement about growing `L`; the result takes `L = 8192`.
-/
import Idealize.ShloMosaic.PureOps.Ideal
import Idealize.ShloMosaic.Lib.ValueIdx

noncomputable section

namespace Attn

open Idealize.ShloMosaic Idealize.ShloMosaic.ValueIdx

/-- The shape of each of the three arguments and of the result. -/
abbrev SArr : Shape := ⟨2, ![8192, 256]⟩

/-- Every entry of an array of extended reals is a real number. -/
def IsReal {s : Shape} (X : s.Idx → EReal) : Prop := ∀ i, X i = ((X i).toReal : EReal)

/-- Entry `(a, b)` of an argument array as a real number (`0` outside the array). -/
def re (X : SArr.Idx → EReal) (a b : ℕ) : ℝ :=
  if h : a < 8192 ∧ b < 256 then (X (ix2 ⟨a, h.1⟩ ⟨b, h.2⟩)).toReal else 0

/-- An array of real entries is read by `re`. -/
theorem re_spec {X : SArr.Idx → EReal} (hX : IsReal X) (a : Fin 8192) (b : Fin 256) :
    X (ix2 a b) = ((re X a.val b.val : ℝ) : EReal) := by
  unfold re; rw [dif_pos ⟨a.isLt, b.isLt⟩]; exact hX _

/-- The score of query row `n` against key row `j`. -/
def score (Q K : SArr.Idx → EReal) (n j : ℕ) : ℝ := ∑ d : Fin 256, re Q n d.val * (1 / 16) * re K j d.val

/-- The weighted sum of column `c` of the values over the keys `j < L`. -/
def num (Q K V : SArr.Idx → EReal) (n c L : ℕ) : ℝ :=
  ∑ j ∈ Finset.range L, Real.exp (score Q K n j) * re V j c

/-- The sum of the weights over the keys `j < L`. -/
def den (Q K : SArr.Idx → EReal) (n L : ℕ) : ℝ := ∑ j ∈ Finset.range L, Real.exp (score Q K n j)

/-- The attention output: entry `(n, c)` is the weighted average over all 8192 keys. -/
def G (Q K V : SArr.Idx → EReal) : SArr.Idx → EReal :=
  fun i => ((num Q K V (i 0).val (i 1).val 8192 / den Q K (i 0).val 8192 : ℝ) : EReal)

/-- The sum of the weights is positive as soon as one key has been seen. -/
theorem den_pos (Q K : SArr.Idx → EReal) (n : ℕ) {L : ℕ} (hL : 0 < L) : 0 < den Q K n L :=
  Finset.sum_pos (fun _ _ => Real.exp_pos _) ⟨0, Finset.mem_range.mpr hL⟩

/-- Adding a block of `B` keys to the weighted sum. -/
theorem num_add (Q K V : SArr.Idx → EReal) (n c L B : ℕ) :
    num Q K V n c (L + B) = num Q K V n c L + ∑ i : Fin B, Real.exp (score Q K n (L + i.val)) * re V (L + i.val) c := by
  unfold num; rw [Finset.sum_range_add]; congr 1; exact Finset.sum_range _

/-- Adding a block of `B` keys to the sum of the weights. -/
theorem den_add (Q K : SArr.Idx → EReal) (n L B : ℕ) :
    den Q K n (L + B) = den Q K n L + ∑ i : Fin B, Real.exp (score Q K n (L + i.val)) := by
  unfold den; rw [Finset.sum_range_add]; congr 1; exact Finset.sum_range _

end Attn

end
-- ==== Proof.Softmax.lean ====
/-
  The real-number layer of the attention certificate.

  For scores `s k` and values `v k` the attention output is the weighted average
  `(∑ k, exp (s k) * v k) / (∑ k, exp (s k))`.  Two ways of computing it are related to it here:

  * a RUNNING accumulation that keeps, for a shift `M` of its own choosing, the pair
    `exp (-M) * ∑ exp (s k) * v k`, `exp (-M) * ∑ exp (s k)` over the keys seen so far, moves it to a new
    shift `M'` by the factor `exp (M - M')` and adds the next keys' terms `exp (s k - M') * v k`
    (`step_real`); the quotient of the pair forgets the shift (`quot_shift`);
  * the normalised form `∑ k, (exp (s k - M) / ∑ j, exp (s j - M)) * v k`, for any shift `M`
    (`softmax_avg`).

  Nothing here asks the shift to be the maximum of the scores: the average does not depend on it.
-/
import Mathlib.Analysis.SpecialFunctions.Exp
import Mathlib.Algebra.BigOperators.Field

namespace Attn

open Finset

/-- Moving an accumulator kept at shift `M` to the shift `M'`. -/
theorem rescale (M M' S : ℝ) : Real.exp (M - M') * (Real.exp (-M) * S) = Real.exp (-M') * S := by
  rw [← mul_assoc, ← Real.exp_add]; congr 2; ring

/-- A block of keys' terms at shift `M'`: the common factor `exp (-M')` comes out of the sum. -/
theorem chunk_shift {ι : Type*} [Fintype ι] (M' : ℝ) (s w : ι → ℝ) :
    ∑ i, Real.exp (s i - M') * w i = Real.exp (-M') * ∑ i, Real.exp (s i) * w i := by
  rw [Finset.mul_sum]
  refine Finset.sum_congr rfl fun i _ => ?_
  rw [sub_eq_add_neg, Real.exp_add]; ring

/-- One step of the running accumulation: rescale what is kept, add the next block. -/
theorem step_real {ι : Type*} [Fintype ι] (M M' S : ℝ) (s w : ι → ℝ) :
    Real.exp (M - M') * (Real.exp (-M) * S) + ∑ i, Real.exp (s i - M') * w i
      = Real.exp (-M') * (S + ∑ i, Real.exp (s i) * w i) := by
  rw [rescale, chunk_shift, mul_add]

/-- The first step, from nothing: only the block's terms. -/
theorem step_first {ι : Type*} [Fintype ι] (M' : ℝ) (s w : ι → ℝ) :
    ∑ i, Real.exp (s i - M') * w i = Real.exp (-M') * (0 + ∑ i, Real.exp (s i) * w i) := by
  rw [chunk_shift, zero_add]

/-- The quotient of the two accumulators does not see the shift. -/
theorem quot_shift (M N D : ℝ) : (Real.exp (-M) * N) / (Real.exp (-M) * D) = N / D :=
  mul_div_mul_left _ _ (Real.exp_ne_zero _)

/-- The normalised weights `exp (s k - M) / ∑ j, exp (s j - M)`, for ANY shift `M`, average `v` to the
    same value as the unshifted ones. -/
theorem softmax_avg {ι : Type*} [Fintype ι] (M : ℝ) (s v : ι → ℝ) :
    ∑ k, Real.exp (s k - M) / (∑ j, Real.exp (s j - M)) * v k
      = (∑ k, Real.exp (s k) * v k) / ∑ k, Real.exp (s k) := by
  have h1 : ∑ j, Real.exp (s j - M) = Real.exp (-M) * ∑ j, Real.exp (s j) := by
    simpa using chunk_shift M s (fun _ => (1 : ℝ))
  rw [h1, Finset.sum_div]
  refine Finset.sum_congr rfl fun k _ => ?_
  rw [sub_eq_add_neg, Real.exp_add, mul_comm (Real.exp (-M)) (∑ j, Real.exp (s j)),
    mul_div_mul_right _ _ (Real.exp_ne_zero _), div_mul_eq_mul_div]

end Attn
-- ==== Proof.RowStep.lean ====
/-
  One row of the running accumulation, in the extended reals.

  The kernel keeps, per query row, a running maximum `m` (initially `-∞`) and accumulators `a` (initially `0`).
  A block of keys with real scores `s i` replaces `m` by `m' = max m (max over the block)` and each accumulator by
  `exp (m - m') * a + ∑ i, exp (s i - m') * w i`.  Here: `m'` is a real number as soon as one block has been seen
  (`fold_max_real`, `max_real`), and if the accumulator held `exp (-m) * S` for the unnormalised sum `S` so far
  (or `0` at the start, where `exp (-∞ - m') = 0` multiplies it), it now holds `exp (-m') * (S + ∑ i, exp (s i) * w i)`
  (`acc_step`).  Which real number `m'` is plays no part.
-/
import Idealize.ShloMosaic.PureOps.Ideal
import Mathlib.Data.Finset.Fold
import Mathlib.Order.MinMax
import proofs.«404649_j83554293776546_3_alg».proof.Proof.Softmax

noncomputable section

namespace Attn

open Idealize.ShloMosaic

/-- A finite sum of real numbers, each read as an extended real, is the real sum read as one. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The maximum of finitely many real numbers (at least one), folded from `-∞`, is a real number. -/
theorem fold_max_real {n : ℕ} (hn : 0 < n) (s : Fin n → ℝ) :
    ∃ R : ℝ, (Finset.univ : Finset (Fin n)).fold max (⊥ : EReal) (fun i => (s i : EReal)) = (R : EReal) := by
  have h1 : (Finset.univ : Finset (Fin n)).fold max (⊥ : EReal) (fun i => (s i : EReal)) ≠ ⊥ := by
    intro h
    have h0 : (s ⟨0, hn⟩ : EReal) ≤ (Finset.univ : Finset (Fin n)).fold max (⊥ : EReal) (fun i => (s i : EReal)) :=
      (Finset.le_fold_max _).mpr (Or.inr ⟨⟨0, hn⟩, Finset.mem_univ _, le_rfl⟩)
    rw [h] at h0
    exact EReal.coe_ne_bot _ (le_bot_iff.mp h0)
  have h2 : (Finset.univ : Finset (Fin n)).fold max (⊥ : EReal) (fun i => (s i : EReal)) ≠ ⊤ :=
    ne_of_lt ((Finset.fold_max_lt _).mpr ⟨bot_lt_top, fun x _ => EReal.coe_lt_top _⟩)
  exact ⟨_, (EReal.coe_toReal h2 h1).symm⟩

/-- The running maximum after a block whose own maximum is real: a real number. -/
theorem max_real (mc : EReal) (h : mc = ⊥ ∨ ∃ M : ℝ, mc = (M : EReal)) (R : ℝ) :
    ∃ M' : ℝ, max mc (R : EReal) = (M' : EReal) := by
  rcases h with rfl | ⟨M, rfl⟩
  · exact ⟨R, max_eq_right bot_le⟩
  · exact ⟨max M R, (EReal.coe_strictMono.monotone.map_max (a := M) (b := R)).symm⟩

/-- One accumulator entry through one block of keys (see the header). -/
theorem acc_step {n : ℕ} (mc a : EReal) (S M' : ℝ) (s w : Fin n → ℝ)
    (h : (mc = ⊥ ∧ a = 0 ∧ S = 0) ∨ ∃ M : ℝ, mc = (M : EReal) ∧ a = ((Real.exp (-M) * S : ℝ) : EReal)) :
    Ideal.exp (mc - (M' : EReal)) * a + ∑ i, Ideal.exp ((s i : EReal) - (M' : EReal)) * (w i : EReal)
      = ((Real.exp (-M') * (S + ∑ i, Real.exp (s i) * w i) : ℝ) : EReal) := by
  have hsum : ∑ i, Ideal.exp ((s i : EReal) - (M' : EReal)) * (w i : EReal)
      = ((∑ i, Real.exp (s i - M') * w i : ℝ) : EReal) := by
    rw [← coe_sum]
    refine Finset.sum_congr rfl fun i _ => ?_
    rw [← EReal.coe_sub, Ideal.exp_coe, ← EReal.coe_mul]
  rw [hsum]
  rcases h with ⟨rfl, rfl, rfl⟩ | ⟨M, rfl, rfl⟩
  · rw [sub_eq_add_neg, EReal.bot_add, Ideal.exp_bot, zero_mul, zero_add, step_first]
  · rw [← EReal.coe_sub, Ideal.exp_coe, ← EReal.coe_mul, ← EReal.coe_add, step_real]

end Attn

end
-- ==== Proof.StepInv.lean ====
/-
  One chunk of keys keeps the running accumulation's invariant, and the invariant after all the keys gives the
  attention output.

  For a block of 2048 query rows starting at row `n0`, the state after the keys `j < L` is, per row: a real shift
  `M` kept as the running maximum in every lane, the value accumulator `exp (-M) * ∑ j < L, exp (s j) * v j c` and the
  weight accumulator `exp (-M) * ∑ j < L, exp (s j)`, with `s j` the row's score against key `j` (`Inv`).  Before any
  key the maximum is minus infinity and the accumulators are zero (`Init`).

  A chunk of 256 keys with real scores replaces the maximum by the larger `M'` of it and the chunk's row maximum,
  a real number whatever the chunk holds, multiplies each accumulator by `exp (M - M')` (by `exp (-∞ - M') = 0` at
  the start, where the accumulator is zero anyway) and adds the chunk's terms `exp (s j - M') * v j c`, respectively
  `exp (s j - M') * 1`: the accumulators then hold the same sums over `j < L + 256` at the shift `M'` (`step_inv`).
  The body is four chunks in a row over the rows `0, 256, 512, 768` of its key and value blocks (`body_inv`).  After
  all 8192 keys the quotient of a value accumulator by the row's weight accumulator forgets the shift and is the
  weighted average (`out_of_inv`).

  The first part reads each operation of a chunk at one entry: the slice, the column cast and the lane broadcasts move
  an entry to a named entry of their operand, and each of the three matrix products is a sum over its 256 contracted
  coordinates.
-/
import proofs.«404649_j83554293776546_3_alg».proof.Proof.Chunk
import proofs.«404649_j83554293776546_3_alg».proof.Proof.Spec
import proofs.«404649_j83554293776546_3_alg».proof.Proof.Softmax
import proofs.«404649_j83554293776546_3_alg».proof.Proof.RowStep
import Idealize.ShloMosaic.Lib.Pipeline.Value
import Idealize.ShloMosaic.Lib.ValueIdx
import Idealize.ShloMosaic.PureOps.Ideal.Laws

noncomputable section

namespace Cert.KernelIdeal.Attn

open Cert.KernelIdeal Idealize.ShloMosaic Idealize.ShloMosaic.ValueIdx
open Facts₀ Facts

/-- After the keys j < L, for the 2048 query rows n0 … n0 + 2047: per row a real shift M with the running maximum ↑M in every lane, the value accumulator ↑(exp (-M) * num) and the weight accumulator ↑(exp (-M) * den). -/
def Inv (Q K V : Attn.SArr.Idx → EReal) (n0 L : ℕ) (st : St Ideal) : Prop :=
  ∀ r : Fin 2048, ∃ M : ℝ, (∀ l : Fin 128, st.ms (ix2 r l) = ((M : ℝ) : EReal))
    ∧ (∀ c : Fin 256, st.am (ix2 r c) = ((Real.exp (-M) * Attn.num Q K V (n0 + r.val) c.val L : ℝ) : EReal))
    ∧ (∀ l : Fin 128, st.sm (ix2 r l) = ((Real.exp (-M) * Attn.den Q K (n0 + r.val) L : ℝ) : EReal))

/-- Before any key: the maximum at -∞, the accumulators at 0. -/
def Init (st : St Ideal) : Prop := (∀ i, st.ms i = (⊥ : EReal)) ∧ (∀ i, st.am i = 0) ∧ (∀ i, st.sm i = 0)

/-! ## The layout operations of a chunk, read at an entry -/

/-- The first lane of a row of the kept maximum. -/
theorem mold_at (ms : Vec Ideal S2048x128 .f32) (r : Fin 2048) :
    mold ms (ix2 r (0 : Fin 1)) = ms (ix2 r (0 : Fin 128)) := by
  unfold mold
  exact extractStridedSlice_apply ![0, 0] ms _ (ix2 r (0 : Fin 1)) (ix2 r (0 : Fin 128)) (fun a => by
    match a with
    | ⟨0, _⟩ => show r.val = 0 + r.val; omega
    | ⟨1, _⟩ => rfl)

/-- A vector of 2048 numbers as a column: row `r` holds entry `r`. -/
theorem col_at {α : Type} (v : S2048.Idx → α) (h : S2048.ShapeCasts S2048x1) (r : Fin 2048) :
    shapeCast S2048x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column spread over 256 lanes: entry `(r, c)` is the column's row `r`. -/
theorem spread256_at {α : Type} (v : S2048x1.Idx → α) (h : S2048x1.Broadcasts S2048x256) (r : Fin 2048) (c : Fin 256) :
    broadcastTo S2048x256 v h (ix2 r c) = v (ix2 r (0 : Fin 1)) := by
  refine broadcastTo_apply v h (ix2 r c) (ix2 r (0 : Fin 1)) (fun a => ?_)
  match a with
  | ⟨0, _⟩ => show r.val = if (2048 : Nat) = 1 then 0 else r.val; rw [if_neg (by decide)]
  | ⟨1, _⟩ => show 0 = if (1 : Nat) = 1 then 0 else c.val; rw [if_pos rfl]

/-- A column spread over 128 lanes: entry `(r, l)` is the column's row `r`. -/
theorem spread128_at {α : Type} (v : S2048x1.Idx → α) (h : S2048x1.Broadcasts S2048x128) (r : Fin 2048) (l : Fin 128) :
    broadcastTo S2048x128 v h (ix2 r l) = v (ix2 r (0 : Fin 1)) := by
  refine broadcastTo_apply v h (ix2 r l) (ix2 r (0 : Fin 1)) (fun a => ?_)
  match a with
  | ⟨0, _⟩ => show r.val = if (2048 : Nat) = 1 then 0 else r.val; rw [if_neg (by decide)]
  | ⟨1, _⟩ => show 0 = if (1 : Nat) = 1 then 0 else l.val; rw [if_pos rfl]

/-! ## The three matrix products, read at an entry -/

theorem lhs_qk_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem lhs_qk_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
theorem rhs_qk_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rhs_qk_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q
/-- Queries against keys, both contracted along their features: entry `(r, c)` is the sum over the features of the products. -/
theorem qk_at (a : FVec Ideal S2048x256 .bf16) (b : FVec Ideal S256x256 .bf16) (r : Fin 2048) (c : Fin 256) :
    matmul dot_S2048x256_S256x256_S2048x256_1_1_0_0_n_n none a b (constant S2048x256 .f32 0x00000000#32) (ix2 r c)
      = ∑ k : Fin 256, a (ix2 r k) * b (ix2 c k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 r c) ((contrEquiv1 dot_S2048x256_S256x256_S2048x256_1_1_0_0_n_n 256 rfl rfl).symm k) = ix2 r k := funext fun x => Fin.ext (by
    match x with
    | ⟨0, _⟩ => exact lhs_qk_0 _ _
    | ⟨1, _⟩ => exact (lhs_qk_1 _ _).trans hk)
  have er : dot_S2048x256_S256x256_S2048x256_1_1_0_0_n_n.rhsIdx (ix2 r c) ((contrEquiv1 dot_S2048x256_S256x256_S2048x256_1_1_0_0_n_n 256 rfl rfl).symm k) = ix2 c k := funext fun x => Fin.ext (by
    match x with
    | ⟨0, _⟩ => exact rhs_qk_0 _ _
    | ⟨1, _⟩ => exact (rhs_qk_1 _ _).trans hk)
  rw [el, er]

theorem lhs_pv_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_pv_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_pv_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_pv_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- Weights against values: entry `(r, c)` is the sum over the chunk's keys of weight times value. -/
theorem pv_at (a : FVec Ideal S2048x256 .bf16) (b : FVec Ideal S256x256 .bf16) (r : Fin 2048) (c : Fin 256) :
    matmul dot_S2048x256_S256x256_S2048x256_1_0_0_1_n_n none a b (constant S2048x256 .f32 0x00000000#32) (ix2 r c)
      = ∑ k : Fin 256, a (ix2 r k) * b (ix2 k c) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r c) ((contrEquiv1 dot_S2048x256_S256x256_S2048x256_1_0_0_1_n_n 256 rfl rfl).symm k) = ix2 r k := funext fun x => Fin.ext (by
    match x with
    | ⟨0, _⟩ => exact lhs_pv_0 _ _
    | ⟨1, _⟩ => exact (lhs_pv_1 _ _).trans hk)
  have er : dot_S2048x256_S256x256_S2048x256_1_0_0_1_n_n.rhsIdx (ix2 r c) ((contrEquiv1 dot_S2048x256_S256x256_S2048x256_1_0_0_1_n_n 256 rfl rfl).symm k) = ix2 k c := funext fun x => Fin.ext (by
    match x with
    | ⟨0, _⟩ => exact (rhs_pv_0 _ _).trans hk
    | ⟨1, _⟩ => exact rhs_pv_1 _ _)
  rw [el, er]

theorem lhs_p1_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_p1_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_p1_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_p1_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
/-- Weights against a 128-lane block: entry `(r, c)` is the sum over the chunk's keys of weight times the block's entry. -/
theorem p1_at (a : FVec Ideal S2048x256 .bf16) (b : FVec Ideal S256x128 .bf16) (r : Fin 2048) (c : Fin 128) :
    matmul dot_S2048x256_S256x128_S2048x128_1_0_0_1_n_n none a b (constant S2048x128 .f32 0x00000000#32) (ix2 r c)
      = ∑ k : Fin 256, a (ix2 r k) * b (ix2 k c) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r c) ((contrEquiv1 dot_S2048x256_S256x128_S2048x128_1_0_0_1_n_n 256 rfl rfl).symm k) = ix2 r k := funext fun x => Fin.ext (by
    match x with
    | ⟨0, _⟩ => exact lhs_p1_0 _ _
    | ⟨1, _⟩ => exact (lhs_p1_1 _ _).trans hk)
  have er : dot_S2048x256_S256x128_S2048x128_1_0_0_1_n_n.rhsIdx (ix2 r c) ((contrEquiv1 dot_S2048x256_S256x128_S2048x128_1_0_0_1_n_n 256 rfl rfl).symm k) = ix2 k c := funext fun x => Fin.ext (by
    match x with
    | ⟨0, _⟩ => exact (rhs_p1_0 _ _).trans hk
    | ⟨1, _⟩ => exact rhs_p1_1 _ _)
  rw [el, er]

/-! ## Blocks of rows and lanes, and the two constants -/

/-- Row `i` of the rows `o … o + 255` of a 1024-row block is row `o + i` of the block. -/
theorem rows_at (x : Vec Ideal S1024x256 .f32) (o : ℕ)
    (h : ∀ a, (![o, 0] : Fin 2 → ℕ) a + S256x256.size a ≤ S1024x256.size a) (i d : Fin 256) (ho : o + i.val < 1024) :
    rows x o h (ix2 i d) = x (ix2 (⟨o + i.val, ho⟩ : Fin 1024) d) := by
  unfold rows
  show x ((Rect.unit (s := S1024x256) ![o, 0] S256x256.size h).emb (ix2 i d)) = _
  refine congrArg x (funext fun a => Fin.ext ?_)
  match a with
  | ⟨0, _⟩ => show o + 1 * i.val = o + i.val; omega
  | ⟨1, _⟩ => show 0 + 1 * d.val = d.val; omega

/-- The first lane of the weight accumulator, as a column. -/
theorem col0_at (sm : Vec Ideal S2048x128 .f32) (r : Fin 2048) :
    col0 sm (ix2 r (0 : Fin 1)) = sm (ix2 r (0 : Fin 128)) := by
  unfold col0
  show sm ((Rect.unit (s := S2048x128) ![0, 0] S2048x1.size (by decide)).emb (ix2 r (0 : Fin 1))) = _
  refine congrArg sm (funext fun a => Fin.ext ?_)
  match a with
  | ⟨0, _⟩ => show 0 + 1 * r.val = r.val; omega
  | ⟨1, _⟩ => show 0 + 1 * 0 = 0; omega

/-- The word `0x3D800000` is one sixteenth. -/
theorem sixteenth : Ideal.ofBits .f32 0x3D800000#32 = ((1 / 16 : ℝ) : EReal) := by
  simp [Ideal.ofBits, Ideal.ieee, -EReal.coe_mul]; norm_num

/-- The half-width word `0x3F80` is one. -/
theorem one_half_width : Ideal.ofBits .bf16 0x3F80#16 = ((1 : ℝ) : EReal) := by
  simp [Ideal.ofBits, Ideal.ieee, -EReal.coe_mul]; norm_num

/-- The scaled query block: every entry times one sixteenth. -/
theorem scaled_at (x0 : Vec Ideal S2048x256 .f32) (r : Fin 2048) (d : Fin 256) :
    Gen.k0_pay7 (F := Ideal) x0 (ix2 r d) = x0 (ix2 r d) * ((1 / 16 : ℝ) : EReal) := by
  rw [← sixteenth]; rfl

/-- The block of ones the weights are summed against. -/
theorem ones_at (i : Fin 256) (l : Fin 128) : Gen.k0_pay8 (F := Ideal) (ix2 i l) = ((1 : ℝ) : EReal) := by
  rw [← one_half_width]; rfl

/-! ## A chunk's intermediate values, read at an entry -/

/-- A chunk's scores are the real scores of the block's rows against the chunk's keys. -/
theorem scores_at (Q K : Attn.SArr.Idx → EReal) (n0 L : ℕ) (qs : FVec Ideal S2048x256 .bf16) (kc : Vec Ideal S256x256 .f32)
    (hq : ∀ (r : Fin 2048) (d : Fin 256), qs (ix2 r d) = ((Attn.re Q (n0 + r.val) d.val * (1 / 16) : ℝ) : EReal))
    (hk : ∀ (i d : Fin 256), kc (ix2 i d) = ((Attn.re K (L + i.val) d.val : ℝ) : EReal))
    (r : Fin 2048) (i : Fin 256) :
    scores qs kc (ix2 r i) = ((Attn.score Q K (n0 + r.val) (L + i.val) : ℝ) : EReal) := by
  unfold scores
  rw [qk_at]
  show ∑ k : Fin 256, qs (ix2 r k) * kc (ix2 i k) = _
  simp only [hq, hk, ← EReal.coe_mul]
  rw [Attn.coe_sum]
  rfl

/-- The maximum of a row of real numbers, started from minus infinity, is a real number. -/
theorem rowmax_real (src : FVec Ideal S2048x256 .f32) (hs : ∀ j, ∃ x : ℝ, src j = (x : EReal)) (r : Fin 2048) :
    ∃ R : ℝ, multiReduction .maximumf [1] S2048 src 0xFF800000#32 reduces_S2048x256_S2048 (.inl rfl) rfl (ix1 r) = (R : EReal) := by
  choose f hf using hs
  have e := Ideal.multiReduction_maximumf_single src 0xFF800000#32 reduces_S2048x256_S2048 (.inl rfl) rfl (ix1 r)
  have hb : FloatOps.ofBits (F := Ideal) .f32 0xFF800000#32 = (⊥ : EReal) := by
    show Ideal.ofBits .f32 0xFF800000#32 = ⊥
    simp [Ideal.ofBits, Ideal.ieee]
  have hfun : (src ∘ reduces_S2048x256_S2048.lift (ix1 r))
      = fun k => ((f (reduces_S2048x256_S2048.lift (ix1 r) k) : ℝ) : EReal) := funext fun k => hf _
  obtain ⟨R, hR⟩ := Attn.fold_max_real (n := S2048x256.size 1) (by decide) (fun k => f (reduces_S2048x256_S2048.lift (ix1 r) k))
  exact ⟨R, e.trans (by rw [hb, hfun]; exact hR)⟩

/-- The new running maximum of row `r`: the larger of the kept one and the chunk's row maximum. -/
theorem mnew_at (qs : FVec Ideal S2048x256 .bf16) (kc : Vec Ideal S256x256 .f32) (ms : Vec Ideal S2048x128 .f32) (r : Fin 2048) :
    mnew qs kc ms (ix2 r (0 : Fin 1))
      = max (ms (ix2 r (0 : Fin 128)))
          (multiReduction .maximumf [1] S2048 (scores qs kc) 0xFF800000#32 reduces_S2048x256_S2048 (.inl rfl) rfl (ix1 r)) := by
  unfold mnew
  rw [maximumf_apply, mold_at, col_at]

/-- The rescaling factor of row `r`. -/
theorem alpha_at (qs : FVec Ideal S2048x256 .bf16) (kc : Vec Ideal S256x256 .f32) (ms : Vec Ideal S2048x128 .f32) (r : Fin 2048) :
    alpha qs kc ms (ix2 r (0 : Fin 1)) = Ideal.exp (ms (ix2 r (0 : Fin 128)) - mnew qs kc ms (ix2 r (0 : Fin 1))) := by
  unfold alpha
  show Ideal.exp (mold ms (ix2 r (0 : Fin 1)) - mnew qs kc ms (ix2 r (0 : Fin 1))) = _
  rw [mold_at]

/-- The weight of key `i` of the chunk in row `r`. -/
theorem probs_at (qs : FVec Ideal S2048x256 .bf16) (kc : Vec Ideal S256x256 .f32) (ms : Vec Ideal S2048x128 .f32) (r : Fin 2048)
    (i : Fin 256) :
    probs qs kc ms (ix2 r i) = Ideal.exp (scores qs kc (ix2 r i) - mnew qs kc ms (ix2 r (0 : Fin 1))) := by
  unfold probs
  show Ideal.exp (scores qs kc (ix2 r i)
    - broadcastTo S2048x256 (mnew qs kc ms) broadcasts_S2048x1_S2048x256 (ix2 r i)) = _
  rw [spread256_at]

/-- The weighted-value accumulator after the chunk, at `(r, c)`. -/
theorem accMain_at (qs : FVec Ideal S2048x256 .bf16) (kc vc : Vec Ideal S256x256 .f32) (ms : Vec Ideal S2048x128 .f32)
    (am : Vec Ideal S2048x256 .f32) (r : Fin 2048) (c : Fin 256) :
    accMain qs kc vc ms am (ix2 r c)
      = alpha qs kc ms (ix2 r (0 : Fin 1)) * am (ix2 r c) + ∑ i : Fin 256, probs qs kc ms (ix2 r i) * vc (ix2 i c) := by
  unfold accMain
  rw [shapeCast_self, addf_apply, mulf_apply, spread256_at, pv_at]
  rfl

/-- The weight accumulator after the chunk, at `(r, l)`. -/
theorem accSum_at (qs : FVec Ideal S2048x256 .bf16) (kc : Vec Ideal S256x256 .f32) (ms sm : Vec Ideal S2048x128 .f32)
    (r : Fin 2048) (l : Fin 128) :
    accSum qs kc ms sm (ix2 r l)
      = alpha qs kc ms (ix2 r (0 : Fin 1)) * sm (ix2 r l)
        + ∑ i : Fin 256, probs qs kc ms (ix2 r i) * ((1 : ℝ) : EReal) := by
  unfold accSum
  rw [shapeCast_self, addf_apply, mulf_apply, spread128_at, p1_at]
  simp only [ones_at]

/-- The running maximum after the chunk, in every lane. -/
theorem msNew_at (qs : FVec Ideal S2048x256 .bf16) (kc : Vec Ideal S256x256 .f32) (ms : Vec Ideal S2048x128 .f32) (r : Fin 2048)
    (l : Fin 128) : msNew qs kc ms (ix2 r l) = mnew qs kc ms (ix2 r (0 : Fin 1)) := by
  unfold msNew
  rw [shapeCast_self, shapeCast_self, spread128_at]

/-! ## One chunk keeps the invariant -/

/-- A chunk of 256 keys, started from nothing or from the invariant at `L`, gives the invariant at `L + 256`. -/
theorem step_inv (Q K V : Attn.SArr.Idx → EReal) (n0 L : ℕ) (qs : FVec Ideal S2048x256 .bf16) (kc vc : Vec Ideal S256x256 .f32) (st : St Ideal)
    (hq : ∀ (r : Fin 2048) (d : Fin 256), qs (ix2 r d) = ((Attn.re Q (n0 + r.val) d.val * (1 / 16) : ℝ) : EReal))
    (hk : ∀ (i d : Fin 256), kc (ix2 i d) = ((Attn.re K (L + i.val) d.val : ℝ) : EReal))
    (hv : ∀ (i c : Fin 256), vc (ix2 i c) = ((Attn.re V (L + i.val) c.val : ℝ) : EReal))
    (h : (L = 0 ∧ Init st) ∨ Inv Q K V n0 L st) : Inv Q K V n0 (L + 256) (step qs kc vc st) := by
  intro r
  -- the chunk's scores are real numbers, so the chunk's maximum in row `r` is one
  have hsc : ∀ (r' : Fin 2048) (i : Fin 256),
      scores qs kc (ix2 r' i) = ((Attn.score Q K (n0 + r'.val) (L + i.val) : ℝ) : EReal) :=
    fun r' i => scores_at Q K n0 L qs kc hq hk r' i
  obtain ⟨R, hR⟩ := rowmax_real (scores qs kc) (fun j => by
    obtain ⟨a, b, rfl⟩ : ∃ (a : Fin 2048) (b : Fin 256), j = ix2 a b := ⟨j 0, j 1, eq_ix2 j⟩
    exact ⟨_, hsc a b⟩) r
  -- row `r` before the chunk: nothing seen yet, or the invariant's three facts at some shift
  have hmc : st.ms (ix2 r (0 : Fin 128)) = ⊥ ∨ ∃ M : ℝ, st.ms (ix2 r (0 : Fin 128)) = (M : EReal) := by
    rcases h with ⟨_, hms, _, _⟩ | hinv
    · exact Or.inl (hms _)
    · obtain ⟨M, hms, _, _⟩ := hinv r
      exact Or.inr ⟨M, hms _⟩
  have hA : ∀ c : Fin 256,
      (st.ms (ix2 r (0 : Fin 128)) = ⊥ ∧ st.am (ix2 r c) = 0 ∧ Attn.num Q K V (n0 + r.val) c.val L = 0)
      ∨ ∃ M : ℝ, st.ms (ix2 r (0 : Fin 128)) = (M : EReal)
          ∧ st.am (ix2 r c) = ((Real.exp (-M) * Attn.num Q K V (n0 + r.val) c.val L : ℝ) : EReal) := by
    intro c
    rcases h with ⟨hL, hms, ham, _⟩ | hinv
    · exact Or.inl ⟨hms _, ham _, by rw [hL]; exact Finset.sum_range_zero _⟩
    · obtain ⟨M, hms, ham, _⟩ := hinv r
      exact Or.inr ⟨M, hms _, ham c⟩
  have hS : ∀ l : Fin 128,
      (st.ms (ix2 r (0 : Fin 128)) = ⊥ ∧ st.sm (ix2 r l) = 0 ∧ Attn.den Q K (n0 + r.val) L = 0)
      ∨ ∃ M : ℝ, st.ms (ix2 r (0 : Fin 128)) = (M : EReal)
          ∧ st.sm (ix2 r l) = ((Real.exp (-M) * Attn.den Q K (n0 + r.val) L : ℝ) : EReal) := by
    intro l
    rcases h with ⟨hL, hms, _, hsm⟩ | hinv
    · exact Or.inl ⟨hms _, hsm _, by rw [hL]; exact Finset.sum_range_zero _⟩
    · obtain ⟨M, hms, _, hsm⟩ := hinv r
      exact Or.inr ⟨M, hms _, hsm l⟩
  -- the new maximum is a real number `M'`
  obtain ⟨M', hM'⟩ := Attn.max_real (st.ms (ix2 r (0 : Fin 128))) hmc R
  have hmn : mnew qs kc st.ms (ix2 r (0 : Fin 1)) = (M' : EReal) := by rw [mnew_at, hR]; exact hM'
  refine ⟨M', fun l => ?_, fun c => ?_, fun l => ?_⟩
  · show msNew qs kc st.ms (ix2 r l) = _
    rw [msNew_at, hmn]
  · show accMain qs kc vc st.ms st.am (ix2 r c) = _
    rw [accMain_at, alpha_at, hmn]
    simp only [probs_at, hsc, hmn, hv]
    rw [Attn.num_add]
    exact Attn.acc_step _ _ _ M' (fun i : Fin 256 => Attn.score Q K (n0 + r.val) (L + i.val))
      (fun i : Fin 256 => Attn.re V (L + i.val) c.val) (hA c)
  · show accSum qs kc st.ms st.sm (ix2 r l) = _
    rw [accSum_at, alpha_at, hmn]
    simp only [probs_at, hsc, hmn]
    rw [Attn.den_add]
    have e := Attn.acc_step _ _ _ M' (fun i : Fin 256 => Attn.score Q K (n0 + r.val) (L + i.val))
      (fun _ : Fin 256 => (1 : ℝ)) (hS l)
    simp only [mul_one] at e
    exact e

/-! ## The body's four chunks keep the invariant -/

/-- The body, started from nothing or from the invariant at `L0`, gives the invariant at `L0 + 1024`. -/
theorem body_inv (Q K V : Attn.SArr.Idx → EReal) (n0 L0 : ℕ) (x0 : Vec Ideal S2048x256 .f32) (x1 x2 : Vec Ideal S1024x256 .f32) (st : St Ideal)
    (hq : ∀ (r : Fin 2048) (d : Fin 256), x0 (ix2 r d) = ((Attn.re Q (n0 + r.val) d.val : ℝ) : EReal))
    (hk : ∀ (i : Fin 1024) (d : Fin 256), x1 (ix2 i d) = ((Attn.re K (L0 + i.val) d.val : ℝ) : EReal))
    (hv : ∀ (i : Fin 1024) (c : Fin 256), x2 (ix2 i c) = ((Attn.re V (L0 + i.val) c.val : ℝ) : EReal))
    (h : (L0 = 0 ∧ Init st) ∨ Inv Q K V n0 L0 st) : Inv Q K V n0 (L0 + 1024) (body x0 x1 x2 st) := by
  have hqs : ∀ (r : Fin 2048) (d : Fin 256),
      Gen.k0_pay7 (F := Ideal) x0 (ix2 r d) = ((Attn.re Q (n0 + r.val) d.val * (1 / 16) : ℝ) : EReal) :=
    fun r d => by rw [scaled_at, hq, ← EReal.coe_mul]
  -- rows `o … o + 255` of the key and value blocks are the keys `L0 + o …`
  have hkc : ∀ (o L : ℕ) (hL : L = L0 + o) (ho : o + 256 ≤ 1024)
      (hh : ∀ a, (![o, 0] : Fin 2 → ℕ) a + S256x256.size a ≤ S1024x256.size a) (i d : Fin 256),
      rows x1 o hh (ix2 i d) = ((Attn.re K (L + i.val) d.val : ℝ) : EReal) := by
    intro o L hL ho hh i d
    rw [rows_at x1 o hh i d (by have := i.isLt; omega), hk]
    show ((Attn.re K (L0 + (o + i.val)) d.val : ℝ) : EReal) = _
    rw [hL, Nat.add_assoc]
  have hvc : ∀ (o L : ℕ) (hL : L = L0 + o) (ho : o + 256 ≤ 1024)
      (hh : ∀ a, (![o, 0] : Fin 2 → ℕ) a + S256x256.size a ≤ S1024x256.size a) (i c : Fin 256),
      rows x2 o hh (ix2 i c) = ((Attn.re V (L + i.val) c.val : ℝ) : EReal) := by
    intro o L hL ho hh i c
    rw [rows_at x2 o hh i c (by have := i.isLt; omega), hv]
    show ((Attn.re V (L0 + (o + i.val)) c.val : ℝ) : EReal) = _
    rw [hL, Nat.add_assoc]
  have s1 := step_inv Q K V n0 L0 (Gen.k0_pay7 x0) (rows x1 0 (by decide)) (rows x2 0 (by decide)) st hqs
    (hkc 0 L0 rfl (by norm_num) _) (hvc 0 L0 rfl (by norm_num) _) h
  have s2 := step_inv Q K V n0 (L0 + 256) (Gen.k0_pay7 x0) (rows x1 256 (by decide)) (rows x2 256 (by decide)) _ hqs
    (hkc 256 _ rfl (by norm_num) _) (hvc 256 _ rfl (by norm_num) _) (Or.inr s1)
  have s3 := step_inv Q K V n0 (L0 + 256 + 256) (Gen.k0_pay7 x0) (rows x1 512 (by decide)) (rows x2 512 (by decide)) _ hqs
    (hkc 512 _ (by omega) (by norm_num) _) (hvc 512 _ (by omega) (by norm_num) _) (Or.inr s2)
  have s4 := step_inv Q K V n0 (L0 + 256 + 256 + 256) (Gen.k0_pay7 x0) (rows x1 768 (by decide)) (rows x2 768 (by decide)) _ hqs
    (hkc 768 _ (by omega) (by norm_num) _) (hvc 768 _ (by omega) (by norm_num) _) (Or.inr s3)
  have e : L0 + 256 + 256 + 256 + 256 = L0 + 1024 := by omega
  rw [e] at s4
  exact s4

/-! ## The output from the invariant after all the keys -/

/-- After all 8192 keys the value accumulator divided by the first lane of the weight accumulator is the weighted
    average: the common factor `exp (-M)` cancels, the weights' sum being positive. -/
theorem out_of_inv (Q K V : Attn.SArr.Idx → EReal) (n0 : ℕ) (st : St Ideal) (h : Inv Q K V n0 8192 st) (r : Fin 2048) (c : Fin 256) :
    Gen.k0_pay4 (F := Ideal) (col0 st.sm) st.am (ix2 r c) = ((Attn.num Q K V (n0 + r.val) c.val 8192 / Attn.den Q K (n0 + r.val) 8192 : ℝ) : EReal) := by
  obtain ⟨M, _, ham, hsm⟩ := h r
  have hden : 0 < Attn.den Q K (n0 + r.val) 8192 := Attn.den_pos Q K (n0 + r.val) (by norm_num)
  have hne : Real.exp (-M) * Attn.den Q K (n0 + r.val) 8192 ≠ 0 := (mul_pos (Real.exp_pos _) hden).ne'
  show Ideal.div (st.am (ix2 r c)) (broadcastTo S2048x256 (col0 st.sm) broadcasts_S2048x1_S2048x256 (ix2 r c)) = _
  rw [spread256_at, col0_at, ham, hsm, Ideal.div_coe hne, ← EReal.coe_mul, mul_one_div, Attn.quot_shift]

end Cert.KernelIdeal.Attn

end
-- ==== Proof.Blocks.lean ====
/-
  From blocks to arrays: where each window's block sits in its array, and the result array from what the
  flushing points write back.

  The grid has 32 points; point `t` has coordinates `(t / 8, t % 8)`: the first picks one of four blocks of
  2048 query rows, the second one of eight blocks of 1024 key rows. So the query block at `t` is rows
  `2048 * (t / 8) + r` of the first argument, the key and value blocks are rows `1024 * (t % 8) + i` of the
  second and third, and the output block is rows `2048 * (t / 8) + r` of the result. The output block is
  written back only at the last key block of each query block, the points with `t % 8 = 7`; the four such
  points' blocks tile the 8192 rows (row `n` lies in the block of point `8 * (n / 2048) + 7`), so a function
  that each of those points' staging buffers agrees with on its rows is the whole result array.
-/
import proofs.«404649_j83554293776546_3_alg».proof.Proof.Gen.KernelIdeal.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The block index of each window at each of the 32 grid points, decided once over the grid: the query
    block and the output block follow the point's first coordinate `t / 8`, the key and value blocks its
    second coordinate `t % 8`, and no window moves along the feature axis. -/
theorem blockIndex : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The query block at point `t` holds rows `2048 * (t / 8) + r` of the first argument. -/
theorem iblk0_apply (c : Dev nD) (t : Fin cfg0.N) (r : Fin 2048) (d : Fin 256) :
    (iblk m c 0 t : Vec F S2048x256 .f32) (ix2 r d)
      = m ((c.tc : Thread nD τ).loc main_arg0)
          (ix2 ⟨2048 * (t.val / 8) + r.val, by have := t.isLt; have hN : cfg0.N = 32 := N_0; omega⟩ d) := by
  obtain ⟨e0, e1, -⟩ := blockIndex t
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val / 8) + r.val; rw [e0]; omega
  | ⟨1, _⟩ => show win0_0.index t 1 * 256 + 1 * d.val = d.val; rw [e1]; omega

/-- The key block at point `t` holds rows `1024 * (t % 8) + i` of the second argument. -/
theorem iblk1_apply (c : Dev nD) (t : Fin cfg0.N) (i : Fin 1024) (d : Fin 256) :
    (iblk m c 1 t : Vec F S1024x256 .f32) (ix2 i d)
      = m ((c.tc : Thread nD τ).loc main_arg1) (ix2 ⟨1024 * (t.val % 8) + i.val, by omega⟩ d) := by
  obtain ⟨-, -, e0, e1, -⟩ := blockIndex t
  unfold iblk
  rw [View.read_apply]
  show V m c main_arg1 _ = m (c.tc.loc main_arg1) _
  unfold V
  congr 1
  funext a
  apply Fin.ext
  match a with
  | ⟨0, _⟩ => show win0_1.index t 0 * 1024 + 1 * i.val = 1024 * (t.val % 8) + i.val; rw [e0]; omega
  | ⟨1, _⟩ => show win0_1.index t 1 * 256 + 1 * d.val = d.val; rw [e1]; omega

/-- The value block at point `t` holds rows `1024 * (t % 8) + i` of the third argument. -/
theorem iblk2_apply (c : Dev nD) (t : Fin cfg0.N) (i : Fin 1024) (d : Fin 256) :
    (iblk m c 2 t : Vec F S1024x256 .f32) (ix2 i d)
      = m ((c.tc : Thread nD τ).loc main_arg2) (ix2 ⟨1024 * (t.val % 8) + i.val, by omega⟩ d) := by
  obtain ⟨-, -, -, -, e0, e1, -⟩ := blockIndex t
  unfold iblk
  rw [View.read_apply]
  show V m c main_arg2 _ = m (c.tc.loc main_arg2) _
  unfold V
  congr 1
  funext a
  apply Fin.ext
  match a with
  | ⟨0, _⟩ => show win0_2.index t 0 * 1024 + 1 * i.val = 1024 * (t.val % 8) + i.val; rw [e0]; omega
  | ⟨1, _⟩ => show win0_2.index t 1 * 256 + 1 * d.val = d.val; rw [e1]; omega

/-- An index of the result array lies in point `t`'s output block iff each coordinate lies in the block's
    range on its axis. -/
theorem mem_outBlock (t : Fin cfg0.N) (i : S8192x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

/-- What a flushing point writes back: if its staging buffer holds the rows of `Gf` that its block covers,
    the block written is `Gf` read through the block. -/
theorem flushed_eq (c : Dev nD) (Gf : S8192x256.Idx → Elt F .f32)
    (h : ∀ (t : Fin cfg0.N), t.val % 8 = 7 → ∀ (r : Fin 2048) (cc : Fin 256),
      (outsAt0 m c t.val t.isLt).1 (ix2 r cc)
        = Gf (ix2 ⟨2048 * (t.val / 8) + r.val, by have := t.isLt; have hN : cfg0.N = 32 := N_0; omega⟩ cc))
    (t : Fin cfg0.N) (hf : (cfg0.win 3).flush t = true) :
    (dats m 0 c).flushed 3 t = ((cfg0.win 3).blk t).view.read (Elt F) Gf := by
  have h7 : t.val % 8 = 7 := (flush0_3 t).mp hf
  obtain ⟨-, -, -, -, -, -, e0, e1⟩ := blockIndex t
  rw [flushed3]
  funext j
  rw [View.read_apply]
  have hj0 : (j 0).val < 2048 := (j 0).isLt
  have hj1 : (j 1).val < 256 := (j 1).isLt
  refine Eq.trans ?_ ((h t h7 ⟨(j 0).val, hj0⟩ ⟨(j 1).val, hj1⟩).trans ?_)
  · refine congrArg (outsAt0 m c t.val t.isLt).1 (funext fun a => ?_)
    match a with
    | ⟨0, _⟩ => rfl
    | ⟨1, _⟩ => rfl
  · refine congrArg Gf (funext fun a => Fin.ext ?_)
    match a with
    | ⟨0, _⟩ => show 2048 * (t.val / 8) + (j 0).val = win0_3.index t 0 * 2048 + 1 * (j 0).val; rw [e0]; omega
    | ⟨1, _⟩ => show (j 1).val = win0_3.index t 1 * 256 + 1 * (j 1).val; rw [e1]; omega

/-- The result array after the run: if at each flushing point the output's staging buffer holds the rows
    of `Gf` that its block covers, the array is `Gf`. Row `n` is covered by the flushing point
    `8 * (n / 2048) + 7`, the last point of the run over the keys for the query block that holds it. -/
theorem final_of_flushed (c : Dev nD) (Gf : S8192x256.Idx → Elt F .f32)
    (h : ∀ (t : Fin cfg0.N), t.val % 8 = 7 → ∀ (r : Fin 2048) (cc : Fin 256),
      (outsAt0 m c t.val t.isLt).1 (ix2 r cc)
        = Gf (ix2 ⟨2048 * (t.val / 8) + r.val, by have := t.isLt; have hN : cfg0.N = 32 := N_0; omega⟩ cc)) :
    (dats m 0 c).arrAt 3 cfg0.N = Gf :=
  (dats m 0 c).arrAt_eq_of_cover 3 Gf (flushed_eq m c Gf h) fun i => by
    have hi0 : (i 0).val < 8192 := (i 0).isLt
    have hi1 : (i 1).val < 256 := (i 1).isLt
    have hN : cfg0.N = 32 := N_0
    obtain ⟨t, ht⟩ : ∃ t : Fin cfg0.N, t.val = 8 * ((i 0).val / 2048) + 7 := ⟨⟨_, by omega⟩, rfl⟩
    obtain ⟨-, -, -, -, -, -, e0, e1⟩ := blockIndex t
    refine ⟨t, (flush0_3 t).mpr (by omega), ?_⟩
    rw [mem_outBlock]
    intro a
    match a with
    | ⟨0, _⟩ =>
      show win0_3.index t 0 * 2048 ≤ (i 0).val ∧ (i 0).val < win0_3.index t 0 * 2048 + 2048
      rw [e0]; omega
    | ⟨1, _⟩ =>
      show win0_3.index t 1 * 256 ≤ (i 1).val ∧ (i 1).val < win0_3.index t 1 * 256 + 256
      rw [e1]; omega

end Cert.KernelIdeal.Blocks

end
-- ==== Proof.KernelValue.lean ====
/-
  The kernel's result array is the attention function of its three arguments.

  A query block's run is eight grid points, one per block of 1024 keys.  After the point that handles key block
  `j` the carried scratch holds, for every row of the query block, the accumulation over the keys below
  `1024 * (j + 1)`: a real shift `M` in the maximum's lanes, `exp (-M)` times the weighted sum of the values and
  `exp (-M)` times the sum of the weights in the accumulator (`inv_at`, by induction on the point: the first point
  of a run starts from `-∞` and zeros, every other point from what the point before left).  The last point of a
  run divides the two and stores the quotient, which no longer sees `M`: the weighted average of Spec.lean over
  all 8192 keys (`flushed_G`).  Those stored blocks tile the result array (`kernel_final`).
-/
import proofs.«404649_j83554293776546_3_alg».proof.Proof.Gen.KernelIdeal.Value
import proofs.«404649_j83554293776546_3_alg».proof.Proof.Pieces
import proofs.«404649_j83554293776546_3_alg».proof.Proof.StepInv
import proofs.«404649_j83554293776546_3_alg».proof.Proof.Blocks
import proofs.«404649_j83554293776546_3_alg».proof.Proof.Spec

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three argument arrays on core `c`. -/
abbrev argQ (c : Dev nD) : _root_.Attn.SArr.Idx → EReal := m ((c.tc : Thread nD τ).loc main_arg0)
abbrev argK (c : Dev nD) : _root_.Attn.SArr.Idx → EReal := m ((c.tc : Thread nD τ).loc main_arg1)
abbrev argV (c : Dev nD) : _root_.Attn.SArr.Idx → EReal := m ((c.tc : Thread nD τ).loc main_arg2)

/-- The `-∞` word. -/
theorem neg_inf_word : Ideal.ofBits .f32 0xFF800000#32 = (⊥ : EReal) := by simp [Ideal.ofBits, Ideal.ieee]

/-- What the first point of a run starts from: the maximum at `-∞`, the accumulators at zero. -/
theorem init_A : Init (⟨Gen.k0_pay5 (F := Ideal), mainOf (Gen.k0_pay6 (F := Ideal)), sumOf (Gen.k0_pay6 (F := Ideal))⟩ : St Ideal) := by
  refine ⟨fun i => ?_, fun i => ?_, fun i => ?_⟩
  · show Gen.k0_pay5 (F := Ideal) i = ⊥
    unfold Gen.k0_pay5; rw [shapeCast_self]; exact neg_inf_word
  · show mainOf (F := Ideal) (Gen.k0_pay6 (F := Ideal)) i = 0
    unfold mainOf Gen.k0_pay6; dsimp only; rw [shapeCast_self]; exact Ideal.ofBits_zero_f32
  · show sumOf (F := Ideal) (Gen.k0_pay6 (F := Ideal)) i = 0
    unfold sumOf Gen.k0_pay6; dsimp only; rw [shapeCast_self]; exact Ideal.ofBits_zero_f32

/-- What the carried scratch holds after point `t`. -/
def stAt (c : Dev nD) (t : Fin cfg0.N) : St Ideal :=
  ⟨(outsAt0 m c t.val t.isLt).2.1, mainOf (outsAt0 m c t.val t.isLt).2.2, sumOf (outsAt0 m c t.val t.isLt).2.2⟩

section
variable (c : Dev nD) (hQ : _root_.Attn.IsReal (argQ m c)) (hK : _root_.Attn.IsReal (argK m c)) (hV : _root_.Attn.IsReal (argV m c))
include hQ hK hV

/-- The point's query block holds rows `2048 * (t / 8) …` of the first argument, as real numbers. -/
theorem blkQ (t : Fin cfg0.N) (r : Fin 2048) (d : Fin 256) :
    (iblk m c 0 t : Vec Ideal S2048x256 .f32) (ix2 r d) = ((_root_.Attn.re (argQ m c) (2048 * (t.val / 8) + r.val) d.val : ℝ) : EReal) := by
  rw [Blocks.iblk0_apply]; exact _root_.Attn.re_spec hQ _ _

/-- The point's key block holds rows `1024 * (t % 8) …` of the second argument, as real numbers. -/
theorem blkK (t : Fin cfg0.N) (i : Fin 1024) (d : Fin 256) :
    (iblk m c 1 t : Vec Ideal S1024x256 .f32) (ix2 i d) = ((_root_.Attn.re (argK m c) (1024 * (t.val % 8) + i.val) d.val : ℝ) : EReal) := by
  rw [Blocks.iblk1_apply]; exact _root_.Attn.re_spec hK _ _

/-- The point's value block holds rows `1024 * (t % 8) …` of the third argument, as real numbers. -/
theorem blkV (t : Fin cfg0.N) (i : Fin 1024) (d : Fin 256) :
    (iblk m c 2 t : Vec Ideal S1024x256 .f32) (ix2 i d) = ((_root_.Attn.re (argV m c) (1024 * (t.val % 8) + i.val) d.val : ℝ) : EReal) := by
  rw [Blocks.iblk2_apply]; exact _root_.Attn.re_spec hV _ _

/-- After point `t` the scratch holds the accumulation over the keys below `1024 * (t % 8) + 1024`, for the rows of
    query block `t / 8`. -/
theorem inv_at : ∀ (n : ℕ) (t : Fin cfg0.N), t.val = n →
    Inv (argQ m c) (argK m c) (argV m c) (2048 * (t.val / 8)) (1024 * (t.val % 8) + 1024) (stAt m c t) := by
  intro n
  induction n with
  | zero =>
    intro t ht
    have h0 : t.val % 8 = 0 := by omega
    have h1 : ¬t.val % 8 = 7 := by omega
    unfold stAt
    rw [outsAt0_A m c t h0 h1]
    dsimp only
    rw [piece_A_ms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
      (piece_A_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).1,
      (piece_A_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2]
    exact body_inv (argQ m c) (argK m c) (argV m c) (2048 * (t.val / 8)) (1024 * (t.val % 8)) (iblk m c 0 t) (iblk m c 1 t) (iblk m c 2 t) _
      (blkQ m c hQ hK hV t) (blkK m c hQ hK hV t) (blkV m c hQ hK hV t) (Or.inl ⟨by omega, init_A⟩)
  | succ n ih =>
    intro t ht
    have hN : t.val < 32 := lt_of_lt_of_eq t.isLt (show cfg0.N = 32 from N_0)
    by_cases h0 : t.val % 8 = 0
    · have h1 : ¬t.val % 8 = 7 := by omega
      unfold stAt
      rw [outsAt0_A m c t h0 h1]
      dsimp only
      rw [piece_A_ms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
        (piece_A_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).1,
        (piece_A_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)).2]
      exact body_inv (argQ m c) (argK m c) (argV m c) (2048 * (t.val / 8)) (1024 * (t.val % 8)) (iblk m c 0 t) (iblk m c 1 t) (iblk m c 2 t) _
        (blkQ m c hQ hK hV t) (blkK m c hQ hK hV t) (blkV m c hQ hK hV t) (Or.inl ⟨by omega, init_A⟩)
    · have hprev := ih ⟨t.val - 1, Nat.lt_of_le_of_lt (Nat.sub_le _ _) t.isLt⟩ (by show t.val - 1 = n; omega)
      have e1 : 2048 * ((t.val - 1) / 8) = 2048 * (t.val / 8) := by omega
      have e2 : 1024 * ((t.val - 1) % 8) + 1024 = 1024 * (t.val % 8) := by omega
      have hprev' : Inv (argQ m c) (argK m c) (argV m c) (2048 * (t.val / 8)) (1024 * (t.val % 8))
          (stAt m c ⟨t.val - 1, Nat.lt_of_le_of_lt (Nat.sub_le _ _) t.isLt⟩) := by
        have := hprev; dsimp only at this; rw [e1, e2] at this; exact this
      by_cases h1 : t.val % 8 = 7
      · unfold stAt
        rw [outsAt0_C m c t h0 h1]
        dsimp only
        rw [piece_C_ms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
          (piece_C_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).1,
          (piece_C_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).2]
        exact body_inv (argQ m c) (argK m c) (argV m c) (2048 * (t.val / 8)) (1024 * (t.val % 8)) (iblk m c 0 t) (iblk m c 1 t) (iblk m c 2 t)
          (stAt m c ⟨t.val - 1, Nat.lt_of_le_of_lt (Nat.sub_le _ _) t.isLt⟩)
          (blkQ m c hQ hK hV t) (blkK m c hQ hK hV t) (blkV m c hQ hK hV t) (Or.inr hprev')
      · unfold stAt
        rw [outsAt0_B m c t h0 h1]
        dsimp only
        rw [piece_B_ms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
          (piece_B_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).1,
          (piece_B_acc (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).2]
        exact body_inv (argQ m c) (argK m c) (argV m c) (2048 * (t.val / 8)) (1024 * (t.val % 8)) (iblk m c 0 t) (iblk m c 1 t) (iblk m c 2 t)
          (stAt m c ⟨t.val - 1, Nat.lt_of_le_of_lt (Nat.sub_le _ _) t.isLt⟩)
          (blkQ m c hQ hK hV t) (blkK m c hQ hK hV t) (blkV m c hQ hK hV t) (Or.inr hprev')

/-- The block a run's last point stores: the rows of the attention function that its query block covers. -/
theorem flushed_G (t : Fin cfg0.N) (h7 : t.val % 8 = 7) (r : Fin 2048) (cc : Fin 256) :
    (outsAt0 m c t.val t.isLt).1 (ix2 r cc)
      = _root_.Attn.G (argQ m c) (argK m c) (argV m c)
          (ix2 ⟨2048 * (t.val / 8) + r.val, by have := t.isLt; have hN : cfg0.N = 32 := N_0; omega⟩ cc) := by
  have hN : t.val < 32 := lt_of_lt_of_eq t.isLt (show cfg0.N = 32 from N_0)
  have h0 : ¬t.val % 8 = 0 := by omega
  have hprev := inv_at m c hQ hK hV (t.val - 1) ⟨t.val - 1, Nat.lt_of_le_of_lt (Nat.sub_le _ _) t.isLt⟩ rfl
  have e1 : 2048 * ((t.val - 1) / 8) = 2048 * (t.val / 8) := by omega
  have e2 : 1024 * ((t.val - 1) % 8) + 1024 = 1024 * (t.val % 8) := by omega
  have hprev' : Inv (argQ m c) (argK m c) (argV m c) (2048 * (t.val / 8)) (1024 * (t.val % 8))
      (stAt m c ⟨t.val - 1, Nat.lt_of_le_of_lt (Nat.sub_le _ _) t.isLt⟩) := by
    have := hprev; dsimp only at this; rw [e1, e2] at this; exact this
  have hbody := body_inv (argQ m c) (argK m c) (argV m c) (2048 * (t.val / 8)) (1024 * (t.val % 8)) (iblk m c 0 t) (iblk m c 1 t) (iblk m c 2 t)
    (stAt m c ⟨t.val - 1, Nat.lt_of_le_of_lt (Nat.sub_le _ _) t.isLt⟩)
    (blkQ m c hQ hK hV t) (blkK m c hQ hK hV t) (blkV m c hQ hK hV t) (Or.inr hprev')
  rw [show 1024 * (t.val % 8) + 1024 = 8192 from by omega] at hbody
  rw [outsAt0_C m c t h0 h7]
  dsimp only
  rw [piece_C_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]
  exact out_of_inv (argQ m c) (argK m c) (argV m c) (2048 * (t.val / 8)) _ hbody r cc

/-- The result array after the run is the attention function of the arguments. -/
theorem kernel_final : (dats m 0 c).arrAt 3 cfg0.N = _root_.Attn.G (argQ m c) (argK m c) (argV m c) :=
  Blocks.final_of_flushed m c (_root_.Attn.G (argQ m c) (argK m c) (argV m c))
    (fun t h7 r cc => flushed_G m c hQ hK hV t h7 r cc)

end

/-- The kernel's run, read: the result array at the attention function of the arguments, the arguments unchanged. -/
theorem run (hreal : ∀ c : Dev nD, _root_.Attn.IsReal (argQ m c) ∧ _root_.Attn.IsReal (argK m c) ∧ _root_.Attn.IsReal (argV m c)) :
    θ_run defs (onTc (τ := τ) (main (F := Ideal))) ⟨m, fun _ => 0, ρ⟩ fun r => ∀ c : Dev nD,
      r.2.mem ((c : Thread nD τ).loc main_v0) = _root_.Attn.G (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (kernel_final m c (hreal c).1 (hreal c).2.1 (hreal c).2.2), (h c).2⟩)
    (Cert.KernelIdeal.Value.run_blocks m ρ)

end Cert.KernelIdeal.Attn

end
-- ==== Proof.RefValue.lean ====
/-
  The reference program computes the attention output.

  Read at entry `(n, c)`, the reference's last operation is the sum over the 8192 keys `j` of a weight times `v j c`.
  With every entry of the three arguments a real number, each stage below it is a real number too:

  * the scaled product of query row `n` with key row `j` is `(∑ d, q n d * k j d) * (1/16)`, the score `s j`
    (one divided by the square root of 256 is one sixteenth);
  * the number `M` subtracted from row `n` is the maximum over the keys of the scores, started from minus infinity.
    Only this is used of it: a maximum of finitely many real numbers, at least one of them, is above minus infinity
    and below plus infinity, so it is a real number;
  * the exponential of `s j - M`, their sum over the keys (from the initial value zero), which is positive, and the
    quotient `exp (s j - M) / ∑ j', exp (s j' - M)`, the weight.

  The weighted sum `∑ j, exp (s j - M) / (∑ j', exp (s j' - M)) * v j c` is then a sum of real numbers, and for any
  real `M` it equals `(∑ j, exp (s j) * v j c) / ∑ j, exp (s j)`: the average does not depend on the shift.
-/
import proofs.«404649_j83554293776546_3_alg».proof.Proof.Gen.ReferenceIdeal.Read
import proofs.«404649_j83554293776546_3_alg».proof.Proof.Spec
import proofs.«404649_j83554293776546_3_alg».proof.Proof.Softmax
import Idealize.ShloMosaic.PureOps.Reduce
import Idealize.ShloMosaic.PureOps.Ideal.Laws
import Idealize.ShloMosaic.Lib.ValueIdx
import Mathlib.Data.EReal.Basic
import Mathlib.Analysis.SpecialFunctions.Sqrt
import Mathlib.Algebra.BigOperators.Fin

noncomputable section

namespace Attn.Ref

open Idealize.ShloMosaic Idealize.ShloMosaic.ValueIdx Cert.ReferenceIdeal Cert.ReferenceIdeal.Gen Cert.ReferenceIdeal.Read

/-- A finite sum of real numbers, read in the extended reals, is the sum of the numbers read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `0xFF800000` is minus infinity. -/
theorem neg_inf : Ideal.ofBits .f32 0xFF800000#32 = (⊥ : EReal) := by
  simp [Ideal.ofBits, Ideal.ieee]

/-- The word `0x3F800000` is the real number one. -/
theorem one_word : Ideal.ofBits .f32 0x3F800000#32 = ((1 : ℝ) : EReal) := by
  simp [Ideal.ofBits, Ideal.ieee, -EReal.coe_mul]; norm_num

/-- The word `0x43800000` is the real number 256. -/
theorem word_256 : Ideal.ofBits .f32 0x43800000#32 = ((256 : ℝ) : EReal) := by
  simp [Ideal.ofBits, Ideal.ieee, -EReal.coe_mul]; norm_num

/-- The scale: one divided by the square root of 256 is one sixteenth. -/
theorem scale_eq :
    Ideal.div (Ideal.ofBits .f32 0x3F800000#32) (Ideal.sqrt (Ideal.ofBits .f32 0x43800000#32)) = ((1 / 16 : ℝ) : EReal) := by
  have h16 : Real.sqrt 256 = 16 := by
    rw [show (256 : ℝ) = 16 ^ 2 by norm_num]; exact Real.sqrt_sq (by norm_num)
  rw [one_word, word_256, Ideal.sqrt_coe, if_neg (by norm_num), h16, Ideal.div_coe (by norm_num), ← EReal.coe_mul, one_mul]

/-- Folding the maximum from minus infinity over a nonempty finite family of real numbers gives a real number:
    the result is at least one of the entries, so above minus infinity, and every entry is below plus infinity. -/
theorem fold_max_real {ι : Type*} (s : Finset ι) (hs : s.Nonempty) (f : ι → EReal)
    (hf : ∀ k, ∃ r : ℝ, f k = (r : EReal)) : ∃ M : ℝ, s.fold max (⊥ : EReal) f = (M : EReal) := by
  have hbot : (⊥ : EReal) < s.fold max ⊥ f := by
    obtain ⟨k, hk⟩ := hs
    obtain ⟨r, hr⟩ := hf k
    exact (Finset.lt_fold_max _).mpr (Or.inr ⟨k, hk, by rw [hr]; exact EReal.bot_lt_coe r⟩)
  have htop : s.fold max (⊥ : EReal) f < ⊤ :=
    (Finset.fold_max_lt _).mpr ⟨bot_lt_top, fun k _ => by obtain ⟨r, hr⟩ := hf k; rw [hr]; exact EReal.coe_lt_top r⟩
  exact ⟨(s.fold max ⊥ f).toReal, (EReal.coe_toReal htop.ne hbot.ne').symm⟩

/-- The maximum over the keys, started from minus infinity, of a row of real numbers is a real number. -/
theorem rowmax_real (x : S8192x8192.Idx → EReal) (hx : ∀ i, ∃ r : ℝ, x i = (r : EReal))
    (h' : S8192x8192.ReducesTo [1] S8192) (hu : 0 < S_.numel) (j : S8192.Idx) :
    ∃ M : ℝ, Host.reduce (FloatOps.maximumf (F := Ideal) (φ := .f32)) x (constant (F := Ideal) S_ .f32 0xFF800000#32) h' hu j = (M : EReal) := by
  have h : S8192x8192.Reduces [1] S8192 := by decide
  rw [Host.reduce_eq_fold_single (FloatOps.maximumf (F := Ideal) (φ := .f32)) x _ h' h hu j]
  have e : (constant (F := Ideal) S_ .f32 0xFF800000#32) (Shape.Idx.first hu) = (⊥ : EReal) := neg_inf
  rw [e]
  exact fold_max_real _ ⟨⟨0, by decide⟩, Finset.mem_univ _⟩ _ (fun k => hx _)

section Stages

variable (Q K : (⟨Cert.ReferenceIdeal.S8192x256, .f32⟩ : BufTy).Contents (Elt Ideal))
  (hQ : Attn.IsReal Q) (hK : Attn.IsReal K)

include hQ hK

/-- The scaled product of query row `n` with key row `j` is the score, a real number. -/
theorem scaled_at (n j : Fin 8192) :
    val_main_v4 (F := Ideal) Q K (ix2 n j) = ((Attn.score Q K n.val j.val : ℝ) : EReal) := by
  have el : ∀ k : Fin 256, lidx_main_v2 (ix2 n j) k = ix2 n k :=
    fun k => funext fun a => by match a with | ⟨0, _⟩ => rfl | ⟨1, _⟩ => rfl
  have er : ∀ k : Fin 256, ridx_main_v2 (ix2 n j) k = ix2 j k :=
    fun k => funext fun a => by match a with | ⟨0, _⟩ => rfl | ⟨1, _⟩ => rfl
  rw [val_main_v4_apply, val_main_v2_apply, val_main_v3_apply, val_main_v1_apply, val_main_v0_apply,
    val_main_cst_0_apply, val_main_cst_apply]
  simp only [el, er, Attn.re_spec hQ, Attn.re_spec hK, Ideal.mulf_def, Ideal.hostDivf_def,
    Ideal.hostUnary_sqrt_def, Ideal.ofBits_def]
  rw [scale_eq]
  simp only [← EReal.coe_mul]
  rw [← coe_sum, ← EReal.coe_mul]
  refine congrArg (fun r : ℝ => (r : EReal)) ?_
  unfold Attn.score
  rw [Finset.sum_mul]
  exact Finset.sum_congr rfl fun d _ => by ring

/-- The number subtracted from row `n`'s scores is a real number. -/
theorem shift_real (n : Fin 8192) : ∃ M : ℝ, val_main_v7 (F := Ideal) Q K (ix1 n) = (M : EReal) := by
  obtain ⟨M, hM⟩ := rowmax_real (val_main_v4 (F := Ideal) Q K) (fun i => by
    obtain ⟨a, b, rfl⟩ : ∃ (a b : Fin 8192), i = ix2 a b := ⟨i 0, i 1, eq_ix2 i⟩
    exact ⟨_, scaled_at Q K hQ hK a b⟩) reducesTo_S8192x8192_S8192_d1 h_S_ (ix1 n)
  have hM' : val_main_v5 (F := Ideal) Q K (ix1 n) = (M : EReal) := hM
  refine ⟨M, ?_⟩
  rw [val_main_v7_apply, val_main_v6_apply, val_main_cst_2_apply, hM', Ideal.maximumf_def, Ideal.ofBits_def, neg_inf]
  exact max_eq_right bot_le

/-- The exponential of a score less the row's shift. -/
theorem exp_at (n j : Fin 8192) (M : ℝ) (hM : val_main_v7 (F := Ideal) Q K (ix1 n) = (M : EReal)) :
    val_main_v11 (F := Ideal) Q K (ix2 n j) = ((Real.exp (Attn.score Q K n.val j.val - M) : ℝ) : EReal) := by
  have e : idx_main_v8 (idx_main_v9 (ix2 n j)) = ix1 n := funext fun a => by match a with | ⟨0, _⟩ => rfl
  rw [val_main_v11_apply, val_main_v10_apply, val_main_v9_apply, val_main_v8_apply, scaled_at Q K hQ hK, e, hM,
    Ideal.subf_def, Ideal.hostUnary_exp_def, ← EReal.coe_sub, Ideal.exp_coe]

/-- The sum over the keys of those exponentials. -/
theorem expsum_at (n : Fin 8192) (M : ℝ) (hM : val_main_v7 (F := Ideal) Q K (ix1 n) = (M : EReal)) :
    val_main_v12 (F := Ideal) Q K (ix1 n)
      = ((∑ j : Fin 8192, Real.exp (Attn.score Q K n.val j.val - M) : ℝ) : EReal) := by
  have e : ∀ k : Fin 8192, idx_main_v12 (ix1 n) k = ix2 n k :=
    fun k => funext fun a => by match a with | ⟨0, _⟩ => rfl | ⟨1, _⟩ => rfl
  have h11 : ∀ k : Fin 8192, val_main_v11 (F := Ideal) Q K (ix2 n k)
      = ((Real.exp (Attn.score Q K n.val k.val - M) : ℝ) : EReal) := fun k => exp_at Q K hQ hK n k M hM
  rw [val_main_v12_apply, val_main_cst_3_apply]
  simp only [e, h11]
  rw [Ideal.ofBits_def, Ideal.ofBits_zero_f32, zero_add, ← coe_sum]

/-- The normalised weight of key `j` in row `n`. -/
theorem weight_at (n j : Fin 8192) (M : ℝ) (hM : val_main_v7 (F := Ideal) Q K (ix1 n) = (M : EReal)) :
    val_main_v15 (F := Ideal) Q K (ix2 n j)
      = ((Real.exp (Attn.score Q K n.val j.val - M) / ∑ j' : Fin 8192, Real.exp (Attn.score Q K n.val j'.val - M) : ℝ) : EReal) := by
  have e : idx_main_v13 (idx_main_v14 (ix2 n j)) = ix1 n := funext fun a => by match a with | ⟨0, _⟩ => rfl
  have hpos : (0 : ℝ) < ∑ j' : Fin 8192, Real.exp (Attn.score Q K n.val j'.val - M) :=
    Finset.sum_pos (fun _ _ => Real.exp_pos _) ⟨⟨0, by norm_num⟩, Finset.mem_univ _⟩
  rw [val_main_v15_apply, val_main_v14_apply, val_main_v13_apply, e, exp_at Q K hQ hK n j M hM,
    expsum_at Q K hQ hK n M hM, Ideal.hostDivf_def, Ideal.div_coe hpos.ne', ← EReal.coe_mul, mul_one_div]

end Stages

/-- The reference computes the attention output: at entry `(n, c)` the weights `exp (s j - M) / ∑ exp (s j' - M)`,
    with `M` the real number the reference subtracts in row `n`, average column `c` of the values, and that average
    does not depend on `M`. -/
theorem ref_eq (Q K V : (⟨Cert.ReferenceIdeal.S8192x256, .f32⟩ : BufTy).Contents (Elt Ideal))
    (hQ : Attn.IsReal Q) (hK : Attn.IsReal K) (hV : Attn.IsReal V) :
    Cert.ReferenceIdeal.Read.val_main_v16 (F := Ideal) Q K V = Attn.G Q K V := by
  funext i
  obtain ⟨n, c, rfl⟩ : ∃ (n : Fin 8192) (c : Fin 256), i = ix2 n c := ⟨i 0, i 1, eq_ix2 i⟩
  obtain ⟨M, hM⟩ := shift_real Q K hQ hK n
  have el : ∀ k : Fin 8192, lidx_main_v16 (ix2 n c) k = ix2 n k :=
    fun k => funext fun a => by match a with | ⟨0, _⟩ => rfl | ⟨1, _⟩ => rfl
  have er : ∀ k : Fin 8192, ridx_main_v16 (ix2 n c) k = ix2 k c :=
    fun k => funext fun a => by match a with | ⟨0, _⟩ => rfl | ⟨1, _⟩ => rfl
  have h15 : ∀ k : Fin 8192, val_main_v15 (F := Ideal) Q K (ix2 n k)
      = ((Real.exp (Attn.score Q K n.val k.val - M) / ∑ j' : Fin 8192, Real.exp (Attn.score Q K n.val j'.val - M) : ℝ) : EReal) :=
    fun k => weight_at Q K hQ hK n k M hM
  rw [val_main_v16_apply]
  simp only [el, er, h15, Attn.re_spec hV]
  simp only [← EReal.coe_mul]
  rw [← coe_sum]
  show _ = ((Attn.num Q K V n.val c.val 8192 / Attn.den Q K n.val 8192 : ℝ) : EReal)
  refine congrArg (fun r : ℝ => (r : EReal)) ?_
  rw [Attn.softmax_avg M (fun k : Fin 8192 => Attn.score Q K n.val k.val) (fun k : Fin 8192 => Attn.re V k.val c.val)]
  unfold Attn.num Attn.den
  rw [Finset.sum_range, Finset.sum_range]

end Attn.Ref

end
-- ==== Proof.Finite.lean ====
/-
  The precondition read back: every entry of the three argument arrays is a real number.

  The precondition is the conjunction, over the three arrays, of "every entry `x` satisfies `|x| < +∞`".
  Over the extended reals `|x|` is `max x (-x)` and `+∞` is `⊤`, so the test at one entry says
  `max x (-x) < ⊤`: then `x ≠ ⊤` (else `max x (-x) = ⊤`) and `x ≠ ⊥` (else `-x = ⊤`), and an extended
  real that is neither infinity is the coercion of its real part.  A conjunction of all the entries' tests
  that came out true had every test true, and a conjunction of three such had each of the three true.
-/
import proofs.«404649_j83554293776546_3_alg».proof.Proof.Gen.Pre_finite_inputs
import proofs.«404649_j83554293776546_3_alg».proof.Pre_finite_inputs
import proofs.«404649_j83554293776546_3_alg».proof.Proof.Spec
import Idealize.ShloMosaic.Lib.ReduceAll
import Idealize.ShloMosaic.Lib.ValueIdx
import Idealize.ShloMosaic.PureOps.Ideal.Laws
import Mathlib.Data.EReal.Basic

namespace Attn.Pre

open Idealize.ShloMosaic Cert.Pre_finite_inputs

/-- The result of the conjunction over all entries has a single index. -/
instance : Subsingleton S_.Idx := ⟨fun a b => funext fun d => d.elim0⟩

/-- The pattern of `+∞` denotes the top element of the extended reals. -/
theorem inf_eq_top : Ideal.ofBits .f32 0x7F800000#32 = (⊤ : EReal) := by simp [Ideal.ofBits, Ideal.ieee]

/-- An extended real whose absolute value lies strictly below `⊤` is a real number. -/
theorem real_of_abs_lt_top (x : EReal) (h : max x (-x) < ⊤) : x = ((x.toReal : ℝ) : EReal) := by
  rw [max_lt_iff] at h
  have h1 : x ≠ ⊤ := ne_of_lt h.1
  have h2 : x ≠ ⊥ := by
    rintro rfl
    exact absurd h.2 (by simp)
  exact (EReal.coe_toReal h1 h2).symm

/-- The test `|x| < +∞` at one entry: an entry that passes it is a real number. -/
theorem real_of_test (x : Ideal .f32)
    (h : FloatOps.cmpf .olt (FloatOps.hostAbsf x) (FloatOps.ofBits (F := Ideal) .f32 0x7F800000#32) = 1#1) :
    (x : EReal) = (((x : EReal).toReal : ℝ) : EReal) := by
  have h' : Ideal.cmp .olt (max (x : EReal) (-(x : EReal))) (Ideal.ofBits .f32 0x7F800000#32) = 1#1 := h
  rw [inf_eq_top] at h'
  unfold Ideal.cmp at h'
  by_cases hlt : max (x : EReal) (-(x : EReal)) < ⊤
  · exact real_of_abs_lt_top x hlt
  · simp [hlt] at h'

/-- One array: if the conjunction over all its entries of the test `|x| < +∞` is true, every entry is real. -/
theorem real_of_all (X : FVec Ideal S8192x256 .f32) (init : IVec S_ 1) (j : S_.Idx)
    (h : Host.reduce IntOp.andi
          (cmpf .olt (Host.absf X)
            (broadcastInDim S8192x256 ![] Facts.bcast_S_S8192x256 (constant (F := Ideal) S_ .f32 0x7F800000#32)))
          init Facts.reducesTo_S8192x256_S_d0_1 Facts.h_S_ j = 1#1) :
    Attn.IsReal X := by
  intro i
  exact real_of_test (X i) (Host.reduce_andi_all _ init _ _ j h i)

/-- The precondition gives that all three arrays have real entries. -/
theorem real_of_pre (A B C : FVec Ideal Cert.Pre_finite_inputs.S8192x256 .f32)
    (h : Cert.Pre_finite_inputs.fn (F := Ideal) A B C = fun _ => 1#1) :
    Attn.IsReal A ∧ Attn.IsReal B ∧ Attn.IsReal C := by
  have h0 := congrFun h ValueIdx.ix0
  dsimp only [Cert.Pre_finite_inputs.fn] at h0
  obtain ⟨hAB, hC⟩ := IntOp.andi_eq_one.1 h0
  obtain ⟨hA, hB⟩ := IntOp.andi_eq_one.1 hAB
  exact ⟨real_of_all A _ _ hA, real_of_all B _ _ hB, real_of_all C _ _ hC⟩

end Attn.Pre
-- ==== Proof.lean ====
/-
  Attention with a full softmax over 8192 keys: a single-pass kernel with a running maximum against the plain
  reference, over the extended reals.

  Both programs compute, for query row `n` and value column `c`, the average of column `c` of the values weighted by
  `exp (score n j)` over the keys `j`, with `score n j = ∑ d, q n d * (1/16) * k j d` (256 features; the kernel's
  scale literal is `1/16`, the reference's is `1 / √256`).  The reference subtracts the row's maximum inside the
  exponentials and normalises before multiplying by the values; the kernel walks the keys in 32 chunks of 256,
  keeps a running maximum, rescales its two accumulators by `exp (old maximum - new maximum)` at every chunk and
  divides once at the end.  Neither the maximum's value nor the order of the chunks enters the result: the
  weighted average is the same for every real shift (Softmax.lean), so each side is shown equal to the unshifted
  average `Attn.G` of Spec.lean — the kernel by an invariant carried through the grid (StepInv.lean,
  KernelValue.lean), the reference operation by operation (RefValue.lean).  The argument needs every input entry
  to be a real number (exp of a difference, a quotient by a positive sum, the start from `-∞` whose factor
  `exp (-∞ - m)` is `0`): that is the precondition (Finite.lean).
  The three frames are the generated ones; the kernel's idealization rewrote nothing.
-/
import proofs.«404649_j83554293776546_3_alg».proof.Defs
import proofs.«404649_j83554293776546_3_alg».proof.Proof.Gen.Kernel
import proofs.«404649_j83554293776546_3_alg».proof.Proof.Gen.Kernel.Skeleton
import proofs.«404649_j83554293776546_3_alg».proof.Proof.Gen.Kernel.Launch
import proofs.«404649_j83554293776546_3_alg».proof.Proof.Gen.Kernel.Points
import proofs.«404649_j83554293776546_3_alg».proof.Proof.Gen.Kernel.Frame
import proofs.«404649_j83554293776546_3_alg».proof.Proof.Gen.KernelIdeal
import proofs.«404649_j83554293776546_3_alg».proof.Proof.Gen.KernelIdeal.Skeleton
import proofs.«404649_j83554293776546_3_alg».proof.Proof.Gen.KernelIdeal.Launch
import proofs.«404649_j83554293776546_3_alg».proof.Proof.Gen.KernelIdeal.Points
import proofs.«404649_j83554293776546_3_alg».proof.Proof.Gen.KernelIdeal.Frame
import proofs.«404649_j83554293776546_3_alg».proof.Proof.Gen.KernelIdeal.Value
import proofs.«404649_j83554293776546_3_alg».proof.Proof.Gen.ReferenceIdeal
import proofs.«404649_j83554293776546_3_alg».proof.Proof.Gen.ReferenceIdeal.Run
import proofs.«404649_j83554293776546_3_alg».proof.Proof.Gen.ReferenceIdeal.Read
import proofs.«404649_j83554293776546_3_alg».proof.Proof.Gen.Pre_finite_inputs
import proofs.«404649_j83554293776546_3_alg».proof.Proof.KernelValue
import proofs.«404649_j83554293776546_3_alg».proof.Proof.RefValue
import proofs.«404649_j83554293776546_3_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From arguments that agree and are finite, both programs end with the weighted average `Attn.G` of the
    arguments in their result arrays. -/
theorem algebraic : Cert.algebraic_KernelIdeal_ReferenceIdeal := by
  intro m ρ m' ρ' hpre hagree
  have hreal : ∀ c : Dev Cert.KernelIdeal.nD,
      Attn.IsReal (Cert.KernelIdeal.Attn.argQ m c) ∧ Attn.IsReal (Cert.KernelIdeal.Attn.argK m c)
        ∧ Attn.IsReal (Cert.KernelIdeal.Attn.argV m c) :=
    fun c => Attn.Pre.real_of_pre _ _ _ (hpre c)
  refine ⟨fun c => Attn.G (Cert.KernelIdeal.Attn.argQ m c) (Cert.KernelIdeal.Attn.argK m c) (Cert.KernelIdeal.Attn.argV m c),
    Cert.KernelIdeal.Attn.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  exact Attn.Ref.ref_eq _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
